-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x256 .f32) (main_arg1 : IVec S262144 32) (main_arg2 : FVec F S1000x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 1000#32
  let main_v13 : IVec S262144 32 := broadcastInDim S262144 ![] bcast_S_S262144 main_c_4
  let main_v14 : IVec S262144 1 := cmpi .slt main_arg1 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x256 : Shape := ⟨2, ![262144, 256]⟩
abbrev S262144 : Shape := ⟨1, ![262144]⟩
abbrev S1000x256 : Shape := ⟨2, ![1000, 256]⟩
abbrev S32x1x8192 : Shape := ⟨3, ![32, 1, 8192]⟩
abbrev S2x1024x256 : Shape := ⟨3, ![2, 1024, 256]⟩
abbrev S2x1024x1 : Shape := ⟨3, ![2, 1024, 1]⟩
abbrev S8192x256 : Shape := ⟨2, ![8192, 256]⟩
abbrev S1x1x8192 : Shape := ⟨3, ![1, 1, 8192]⟩
abbrev S1x1024x256 : Shape := ⟨3, ![1, 1024, 256]⟩
abbrev S1x1024x1 : Shape := ⟨3, ![1, 1024, 1]⟩
abbrev S1024x256 : Shape := ⟨2, ![1024, 256]⟩
abbrev S1024x1 : Shape := ⟨2, ![1024, 1]⟩
abbrev S1024x8192 : Shape := ⟨2, ![1024, 8192]⟩
abbrev S1x8192 : Shape := ⟨2, ![1, 8192]⟩
abbrev S8192x1 : Shape := ⟨2, ![8192, 1]⟩
abbrev S_ : Shape := ⟨0, ![]⟩
abbrev S1000x1 : Shape := ⟨2, ![1000, 1]⟩
abbrev S1000 : Shape := ⟨1, ![1000]⟩
abbrev S2x1x1 : Shape := ⟨3, ![2, 1, 1]⟩
abbrev S1x1x1 : Shape := ⟨3, ![1, 1, 1]⟩
abbrev S1x1 : Shape := ⟨2, ![1, 1]⟩
abbrev S8192x1024 : Shape := ⟨2, ![8192, 1024]⟩
abbrev S8192 : Shape := ⟨1, ![8192]⟩
abbrev S1x8192x1 : Shape := ⟨3, ![1, 8192, 1]⟩
abbrev S1 : Shape := ⟨1, ![1]⟩

abbrev nBuf : Space → Nat
  | .hbm => 35
  | .vmem => 15
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S32x1x8192, .i32⟩
  | .hbm, ⟨4, _⟩ => ⟨S2x1024x256, .f32⟩
  | .hbm, ⟨5, _⟩ => ⟨S2x1024x1, .f32⟩
  | .hbm, ⟨6, _⟩ => ⟨S_, .f32⟩
  | .hbm, ⟨7, _⟩ => ⟨S1024x256, .f32⟩
  | .hbm, ⟨8, _⟩ => ⟨S1000x256, .f32⟩
  | .hbm, ⟨9, _⟩ => ⟨S_, .f32⟩
  | .hbm, ⟨10, _⟩ => ⟨S1024x1, .f32⟩
  | .hbm, ⟨11, _⟩ => ⟨S1000x1, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000x1, .f32⟩
  | .hbm, ⟨17, _⟩ => ⟨S1000x256, .f32⟩
  | .hbm, ⟨18, _⟩ => ⟨S1000x256, .f32⟩
  | .hbm, ⟨19, _⟩ => ⟨S_, .f32⟩
  | .hbm, ⟨20, _⟩ => ⟨S1000, .f32⟩
  | .hbm, ⟨21, _⟩ => ⟨S1000, .i1⟩
  | .hbm, ⟨22, _⟩ => ⟨S1000x1, .i1⟩
  | .hbm, ⟨23, _⟩ => ⟨S1000x256, .i1⟩
  | .hbm, ⟨24, _⟩ => ⟨S1000x256, .f32⟩
  | .hbm, ⟨25, _⟩ => ⟨S_, .i32⟩
  | .hbm, ⟨26, _⟩ => ⟨S_, .f32⟩
  | .hbm, ⟨27, _⟩ => ⟨S1024x256, .f32⟩
  | .hbm, ⟨28, _⟩ => ⟨S2x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S1x1x8192, .i32⟩
  | .local _ .vmem, ⟨3, _⟩ => ⟨S1x1x8192, .i32⟩
  | .local _ .vmem, ⟨4, _⟩ => ⟨S1x1024x256, .f32⟩
  | .local _ .vmem, ⟨5, _⟩ => ⟨S1x1024x256, .f32⟩
  | .local _ .vmem, ⟨6, _⟩ => ⟨S1x1024x1, .f32⟩
  | .local _ .vmem, ⟨7, _⟩ => ⟨S1x1024x1, .f32⟩
  | .local _ .vmem, ⟨8, _⟩ => ⟨S8192x256, .f32⟩
  | .local _ .vmem, ⟨9, _⟩ => ⟨S8192x256, .f32⟩
  | .local _ .vmem, ⟨10, _⟩ => ⟨S1x1x8192, .i32⟩
  | .local _ .vmem, ⟨11, _⟩ => ⟨S1x1x8192, .i32⟩
  | .local _ .vmem, ⟨12, _⟩ => ⟨S1024x256, .f32⟩
  | .local _ .vmem, ⟨13, _⟩ => ⟨S1x1x1, .f32⟩
  | .local _ .vmem, ⟨14, _⟩ => ⟨S1x1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_c : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S262144_S32x1x8192 : S262144.ShapeCasts S32x1x8192
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  iota_S1024x8192_d0_w32 : S1024x8192.Iotas .tc 32 [0]
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  broadcasts_S1x8192_S1024x8192 : S1x8192.Broadcasts S1024x8192
  natLt_1_32 : 1 < 32
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  reducesTo_S2x1024x256_S1024x256_d0 : S2x1024x256.ReducesTo [0] S1024x256
  h_S_ : 0 < S_.numel
  slices_S1024x256_S1000x256_0_0 : S1024x256.Slices ![0, 0] S1000x256
  reducesTo_S2x1024x1_S1024x1_d0 : S2x1024x1.ReducesTo [0] S1024x1
  slices_S1024x1_S1000x1_0_0 : S1024x1.Slices ![0, 0] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  pads_S1000x256_S1024x256_0240_000 : S1000x256.Pads (![0, 0] : Fin 2 → Nat) ![24, 0] ![0, 0] S1024x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  transposes_S1x8192_p1_0_S8192x1 : S1x8192.Transposes [1, 0] S8192x1
  iota_S8192x1024_d1_w32 : S8192x1024.Iotas .tc 32 [1]
  broadcasts_S8192x1_S8192x1024 : S8192x1.Broadcasts S8192x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S8192x256_S8192 : S8192x256.Reduces [1] S8192
  shapeCasts_S8192_S8192x1 : S8192.ShapeCasts S8192x1
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S1024x8192_S8192x256_S1024x256_1_0_0_1_n_n_wf : DotDims.WF S1024x8192 S8192x256 S1024x256 [1] [0] [0] [1] [] []
  dot_S1024x8192_S8192x1_S1024x1_1_0_0_1_n_n_wf : DotDims.WF S1024x8192 S8192x1 S1024x1 [1] [0] [0] [1] [] []
  dot_S8192x1024_S1024x256_S8192x256_1_0_0_1_n_n_wf : DotDims.WF S8192x1024 S1024x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S32x1x8192.size a
  hwx0_1 : ∀ i : grid0.Coords, EltTy.bits .i32 = 32 ∨ (Rect.block (s := S32x1x8192) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S262144x256.size a
  hwx1_0 : ∀ i : grid1.Coords, EltTy.bits .f32 = 32 ∨ (Rect.block (s := S262144x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x8192.size a ≤ S32x1x8192.size a
  hwx1_1 : ∀ i : grid1.Coords, EltTy.bits .i32 = 32 ∨ (Rect.block (s := S32x1x8192) S1x1x8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .f32 = 32 ∨ (Rect.block (s := S1024x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S1024x8192_S8192x256_S1024x256_1_0_0_1_n_n : DotDims S1024x8192 S8192x256 S1024x256 where
  lhsContracting := [1]
  rhsContracting := [0]
  lhsNonContracting := [0]
  rhsNonContracting := [1]
  lhsBatch := []
  rhsBatch := []
  wf := dot_S1024x8192_S8192x256_S1024x256_1_0_0_1_n_n_wf
def dot_S1024x8192_S8192x1_S1024x1_1_0_0_1_n_n : DotDims S1024x8192 S8192x1 S1024x1 where
  lhsContracting := [1]
  rhsContracting := [0]
  lhsNonContracting := [0]
  rhsNonContracting := [1]
  lhsBatch := []
  rhsBatch := []
  wf := dot_S1024x8192_S8192x1_S1024x1_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S_ : Shape := ⟨0, ![]⟩
abbrev S262144x1 : Shape := ⟨2, ![262144, 1]⟩
abbrev S1000 : Shape := ⟨1, ![1000]⟩
abbrev S1000x1 : Shape := ⟨2, ![1000, 1]⟩

abbrev nBuf : Space → Nat
  | .hbm => 45
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S_, .f32⟩
  | .hbm, ⟨4, _⟩ => ⟨S1000x256, .f32⟩
  | .hbm, ⟨5, _⟩ => ⟨S262144x1, .i32⟩
  | .hbm, ⟨6, _⟩ => ⟨S1000x256, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S1000, .f32⟩
  | .hbm, ⟨11, _⟩ => ⟨S262144x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000x1, .f32⟩
  | .hbm, ⟨17, _⟩ => ⟨S1000x256, .f32⟩
  | .hbm, ⟨18, _⟩ => ⟨S1000x256, .f32⟩
  | .hbm, ⟨19, _⟩ => ⟨S_, .f32⟩
  | .hbm, ⟨20, _⟩ => ⟨S1000, .f32⟩
  | .hbm, ⟨21, _⟩ => ⟨S1000, .i1⟩
  | .hbm, ⟨22, _⟩ => ⟨S1000x1, .i1⟩
  | .hbm, ⟨23, _⟩ => ⟨S1000x256, .i1⟩
  | .hbm, ⟨24, _⟩ => ⟨S1000x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S262144x256_S262144_d1 : S262144x256.ReducesTo [1] S262144
  h_S_ : 0 < S_.numel
  reducesTo_S262144_S_d0 : S262144.ReducesTo [0] S_
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1
  gather_S1000x256_S262144x1_S262144x256_1_0_n_n_0_1_1256_wf : GatherDims.WF S1000x256 S262144x1 S262144x256 [1] [0] [] [0] [] 1 ![1, 256]

variable [Facts₀]

def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf
def gather_S1000x256_S262144x1_S262144x256_1_0_n_n_0_1_1256 : GatherDims S1000x256 S262144x1 S262144x256 where
  offsetDims := [1]
  collapsedSliceDims := [0]
  operandBatchingDims := []
  startIndicesBatchingDims := []
  startIndexMap := [0]
  indexVectorDim := 1
  sliceSizes := ![1, 256]
  wf := gather_S1000x256_S262144x1_S262144x256_1_0_n_n_0_1_1256_wf

class Facts : Prop extends Facts₀ where

variable [Facts]
-- ==== Proof.Spec.lean ====
/-
  The center loss as ONE function of the three input arrays, over the extended reals.

  For a batch of 262144 rows of 256 features, a label in [0, 1000) per row and a table of 1000 centers:
    * the sum and the count of the rows of each class (a row weighs 1 in its own class and 0 in every other);
    * each class that occurs gets its rows' mean as its new center, a class that does not occur keeps its center;
    * every row's distance to its class's new center (the square root of the summed squared differences);
    * half the mean of those distances.
  Rows, features and classes are indexed by natural numbers; an array read outside its extent is 0, so that sums over
  tiles of rows are plain sums over ranges. The float literals stay the words both programs print.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

/-- The batch, the labels and the centers as arrays over their index types. -/
abbrev Batch := (⟨2, ![262144, 256]⟩ : Shape).Idx → EReal
abbrev Labels := (⟨1, ![262144]⟩ : Shape).Idx → BitVec 32
abbrev Centers := (⟨2, ![1000, 256]⟩ : Shape).Idx → EReal

variable (x : Batch) (l : Labels) (cen : Centers)

/-- Feature `d` of row `r`. -/
def feat (r d : ℕ) : EReal := if h : r < 262144 ∧ d < 256 then x (ix2 ⟨r, h.1⟩ ⟨d, h.2⟩) else 0

/-- Row `r`'s label word. -/
def label (r : ℕ) : BitVec 32 := if h : r < 262144 then l (ix1 ⟨r, h⟩) else 0#32

/-- Feature `d` of class `k`'s given center. -/
def center (k d : ℕ) : EReal := if h : k < 1000 ∧ d < 256 then cen (ix2 ⟨k, h.1⟩ ⟨d, h.2⟩) else 0

/-- The weight of a row with label word `w` in class `k`: 1 in its own class, 0 in every other. -/
def hot (w : BitVec 32) (k : ℕ) : EReal := if w = BitVec.ofNat 32 k then 1 else 0

/-- The sum of feature `d` over the rows of class `k`. -/
def classSum (k d : ℕ) : EReal := ∑ r ∈ Finset.range 262144, hot (label l r) k * feat x r d

/-- The number of rows of class `k`. -/
def classCount (k : ℕ) : EReal := ∑ r ∈ Finset.range 262144, hot (label l r) k

/-- Class `k`'s new center: the mean of its rows when it has any, else the given center. -/
def newCenter (k d : ℕ) : EReal :=
  Scalar.select (Ideal.cmp .ogt (classCount l k) (Ideal.ofBits .f32 0x00000000#32))
    (Ideal.div (classSum x l k d) (max (classCount l k) (Ideal.ofBits .f32 0x3F800000#32)))
    (center cen k d)

/-- Row `r`'s distance to its class's new center. -/
def rowDist (r : ℕ) : EReal :=
  Ideal.sqrt (∑ d ∈ Finset.range 256,
    (feat x r d - newCenter x l cen (label l r).toNat d) * (feat x r d - newCenter x l cen (label l r).toNat d))

/-- Half the mean distance. -/
def loss : EReal :=
  Ideal.ofBits .f32 0x3F000000#32
    * Ideal.div (∑ r ∈ Finset.range 262144, rowDist x l cen r) (Ideal.ofBits .f32 0x48800000#32)

/-- Every label names a class. -/
def InRange : Prop := ∀ r, r < 262144 → (label l r).toNat < 1000

end Cert.CenterLoss

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.RefValue.lean ====
/-
  The reference computes the center loss: its segment sums are the class sums and counts (a scatter-add lands a row in
  the class its label names), its `where` the new centers, its gather each row's class center, and its norm, mean and
  scale the loss.
-/
import proofs.«421600_j48103633715690_3_alg».proof.Proof.RefRead
import proofs.«421600_j48103633715690_3_alg».proof.Proof.Spec
import proofs.«421600_j48103633715690_3_alg».proof.Proof.LibGatherRows
import proofs.«421600_j48103633715690_3_alg».proof.Proof.LibScatterAddRows
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.IdealRules

noncomputable section

namespace Cert.ReferenceIdeal.RefValue

open Cert.ReferenceIdeal Cert.ReferenceIdeal.Gen Cert.CenterLoss
open Idealize.ShloMosaic Idealize.ShloMosaic.ValueIdx

/-- A 32-bit word read signed is the class number k < 1000 exactly when it is the word of k (no range is asked of the word). -/
private theorem toInt_eq_iff (w : BitVec 32) (k : Nat) (hk : k < 1000) :
    w.toInt = (k : Int) ↔ w = BitVec.ofNat 32 k := by
  rw [BitVec.toInt_eq_toNat_cond, ← BitVec.toNat_inj, BitVec.toNat_ofNat]
  have := w.isLt
  split <;> omega

/-- The word of 1.0 is the extended real 1. -/
private theorem one_f32 : Ideal.ofBits .f32 0x3F800000#32 = 1 := IdealRules.sign_bit.ideal_onePat .f32

/-- The column of scatter indices at row p is row p's label word. -/
private theorem col_v5 (l : Labels) (p : Fin 262144) :
    ReadP.val_main_v5 (F := Ideal) l (ix2 p ⟨0, Nat.one_pos⟩) = label l p.val := by
  rw [ReadP.val_main_v5_apply]
  unfold label
  rw [dif_pos p.isLt]
  exact congrArg l (funext fun a => by match a with | ⟨0, _⟩ => rfl)

/-- The same column, as the row scatter reads it. -/
private theorem col_v1 (l : Labels) (p : Fin 262144) :
    ReadP.val_main_v1 (F := Ideal) l (ix2 p ⟨0, Nat.one_pos⟩) = label l p.val := by
  rw [ReadP.val_main_v1_apply]
  unfold label
  rw [dif_pos p.isLt]
  exact congrArg l (funext fun a => by match a with | ⟨0, _⟩ => rfl)

/-- The segment sum of ones is the class count. -/
private theorem count_eq (l : Labels) (k : Fin 1000) :
    ReadP.val_main_v6 (F := Ideal) l (ix1 k) = classCount l k.val := by
  unfold ReadP.val_main_v6 Host.scatterAdd
  rw [Ideal.hostScatterAdd_def]
  refine (ScatterAddRows.scatterAdd_entries_apply Facts₀.scatter_S1000_S262144x1_S262144_n_0_0_1_wf _ _ _ k).trans ?_
  rw [ReadP.val_main_v4_apply, ReadP.val_main_cst_1_apply, Ideal.ofBits_def, Ideal.ofBits_zero_f32, zero_add]
  unfold classCount
  rw [← Fin.sum_univ_eq_sum_range (fun r => hot (label l r) k.val) 262144]
  refine Finset.sum_congr rfl fun p _ => ?_
  rw [col_v5, ReadP.val_main_v3_apply, ReadP.val_main_cst_0_apply, Ideal.ofBits_def, one_f32]
  unfold hot
  exact if_congr (toInt_eq_iff _ _ k.isLt) rfl rfl

/-- The segment sum of the rows is the class sum. -/
private theorem sum_eq (x : Batch) (l : Labels) (k : Fin 1000) (d : Fin 256) :
    ReadP.val_main_v2 (F := Ideal) x l (ix2 k d) = classSum x l k.val d.val := by
  unfold ReadP.val_main_v2 Host.scatterAdd
  rw [Ideal.hostScatterAdd_def]
  refine (ScatterAddRows.scatterAdd_rows_apply Facts₀.scatter_S1000x256_S262144x1_S262144x256_1_0_0_1_wf _ _ _ k d).trans ?_
  rw [ReadP.val_main_v0_apply, ReadP.val_main_cst_apply, Ideal.ofBits_def, Ideal.ofBits_zero_f32, zero_add]
  unfold classSum
  rw [← Fin.sum_univ_eq_sum_range (fun r => hot (label l r) k.val * feat x r d.val) 262144]
  refine Finset.sum_congr rfl fun p _ => ?_
  have hf : feat x p.val d.val = x (ix2 p d) := by
    unfold feat; rw [dif_pos ⟨p.isLt, d.isLt⟩]
  rw [col_v1, hf]
  unfold hot
  rw [ite_mul, one_mul, zero_mul]
  exact if_congr (toInt_eq_iff _ _ k.isLt) rfl rfl

/-- The reference's table after the `where`: class k's new center. -/
theorem newCenter_eq (x : Batch) (l : Labels) (cen : Centers) (k : Fin 1000) (d : Fin 256) :
    Cert.ReferenceIdeal.ReadP.val_main_v15 (F := Ideal) x l cen (ix2 k d) = newCenter x l cen k.val d.val := by
  have h14 : ReadP.idx_main_v14 (ReadP.idx_main_call0_v0 (ix2 k d)) = ix1 k := by
    funext a; match a with | ⟨0, _⟩ => rfl
  have h9 : ReadP.idx_main_v9 (ReadP.idx_main_v10 (ix2 k d)) = ix1 k := by
    funext a; match a with | ⟨0, _⟩ => rfl
  have hc : cen (ix2 k d) = center cen k.val d.val := by
    unfold center; rw [dif_pos ⟨k.isLt, d.isLt⟩]
  rw [ReadP.val_main_v15_apply, ReadP.val_main_call0_v0_apply, ReadP.val_main_v14_apply, ReadP.val_main_v13_apply, h14,
    ReadP.val_main_v12_apply, ReadP.val_main_cst_3_apply, ReadP.val_main_v11_apply, ReadP.val_main_v10_apply,
    ReadP.val_main_v9_apply, ReadP.val_main_v8_apply, h9, ReadP.val_main_v7_apply, ReadP.val_main_cst_2_apply,
    count_eq, sum_eq, hc]
  rfl

/-- When the label of row p names a class, its wrapped word, read signed and clamped into the table, is the label's
    value: a word below 1000 is not negative, so the wrap keeps it, and the clamp at 999 keeps it. -/
private theorem idx_row (l : Labels) (hl : InRange l) (p : Fin 262144) :
    min (ReadP.val_main_v21 (F := Ideal) l (ix2 p ⟨0, Nat.one_pos⟩)).toInt.toNat (1000 - 1) = (label l p.val).toNat := by
  have h21 : ReadP.idx_main_v21 (ix2 p ⟨0, Nat.one_pos⟩) = ix1 p := by
    funext a; match a with | ⟨0, _⟩ => rfl
  have hlab : l (ix1 p) = label l p.val := by
    unfold label; rw [dif_pos p.isLt]
  have hr := hl p.val p.isLt
  rw [ReadP.val_main_v21_apply, h21, ReadP.val_main_v20_apply, ReadP.val_main_v17_apply, ReadP.val_main_v16_apply,
    ReadP.val_main_c_apply, hlab]
  generalize label l p.val = w at hr ⊢
  have hti : w.toInt = (w.toNat : Int) := by
    rw [BitVec.toInt_eq_toNat_cond, if_pos (by omega)]
  have hslt : IntOp.cmpi .slt w 0#32 = 0#1 := by
    have : w.slt 0#32 = false := by
      simp [BitVec.slt, hti]
    show BitVec.ofBool (w.slt 0#32) = 0#1
    rw [this]; rfl
  rw [hslt, select_zero, hti]
  omega

/-- Row p's norm is its distance to its class's new center: the gathered row is the new center of the label's class. -/
private theorem row_eq (x : Batch) (l : Labels) (cen : Centers) (hl : InRange l) (p : Fin 262144) :
    ReadP.val_main_v24 (F := Ideal) x l cen (ix1 p) = rowDist x l cen p.val := by
  rw [ReadP.val_main_v24_apply, Ideal.hostUnary_sqrt_def, ReadP.val_main_call1_v1_apply, ReadP.val_main_call1_cst_apply,
    Ideal.ofBits_def, Ideal.ofBits_zero_f32, zero_add]
  unfold rowDist
  rw [← Fin.sum_univ_eq_sum_range (fun d => (feat x p.val d - newCenter x l cen (label l p.val).toNat d)
    * (feat x p.val d - newCenter x l cen (label l p.val).toNat d)) 256]
  refine congrArg Ideal.sqrt (Finset.sum_congr rfl fun q _ => ?_)
  have hi : ReadP.idx_main_call1_v1 (ix1 p) q = ix2 p q := by
    funext a; match a with | ⟨0, _⟩ => rfl | ⟨1, _⟩ => rfl
  have hf : feat x p.val q.val = x (ix2 p q) := by
    unfold feat; rw [dif_pos ⟨p.isLt, q.isLt⟩]
  have hg : ReadP.val_main_v22 (F := Ideal) x l cen (ix2 p q) = newCenter x l cen (label l p.val).toNat q.val := by
    unfold ReadP.val_main_v22
    refine (GatherRows.gather_rows_apply (by decide) Facts₀.gather_S1000x256_S262144x1_S262144x256_1_0_n_n_0_1_1256_wf _ _ p q).trans ?_
    exact (congrArg (ReadP.val_main_v15 (F := Ideal) x l cen) (congrArg (fun a => ix2 a q) (Fin.ext (idx_row l hl p)))).trans
      (newCenter_eq x l cen ⟨(label l p.val).toNat, hl p.val p.isLt⟩ q)
  rw [hi, ReadP.val_main_call1_v0_apply, ReadP.val_main_v23_apply, Ideal.mulf_def, Ideal.subf_def, hg, hf]

/-- The reference's result is the loss, when every label names a class. -/
theorem result_eq (x : Batch) (l : Labels) (cen : Centers) (hl : InRange l) :
    Cert.ReferenceIdeal.ReadP.val_main_v27 (F := Ideal) x l cen = fun _ => loss x l cen := by
  funext i
  have hs : ∑ j : S262144.Idx, ReadP.val_main_v24 (F := Ideal) x l cen j = ∑ r ∈ Finset.range 262144, rowDist x l cen r := by
    rw [← Fin.sum_univ_eq_sum_range (fun r => rowDist x l cen r) 262144]
    exact (Equiv.sum_comp idxEquiv1.symm _).symm.trans (Finset.sum_congr rfl fun p _ => row_eq x l cen hl p)
  rw [ReadP.val_main_v27_apply, ReadP.val_main_cst_7_apply, ReadP.val_main_v26_apply, ReadP.val_main_cst_6_apply,
    ReadP.val_main_v25_apply, ReadP.val_main_cst_5_apply, hs]
  simp only [Ideal.mulf_def, Ideal.hostDivf_def, Ideal.ofBits_def]
  rw [Ideal.ofBits_zero_f32, zero_add]
  rfl

end Cert.ReferenceIdeal.RefValue

end
-- ==== Proof.PreDecode.lean ====
/-
  The precondition, read: beside the finiteness of the two float inputs it says that every label is at least 0 and
  below 1000, compared as signed words; a word in that range is a class number.
-/
import proofs.«421600_j48103633715690_3_alg».proof.Defs
import proofs.«421600_j48103633715690_3_alg».proof.Proof.Gen.KernelIdeal
import proofs.«421600_j48103633715690_3_alg».proof.Proof.Gen.Pre_finite_inputs
import proofs.«421600_j48103633715690_3_alg».proof.Proof.Spec
import Idealize.ShloMosaic.Lib.ReduceAll
import Idealize.ShloMosaic.Lib.StableHlo.Predicate

noncomputable section

namespace Cert.KernelIdeal.PreDecode

open Cert.CenterLoss Idealize.ShloMosaic Idealize.ShloMosaic.ValueIdx Idealize.SL.Sem

/-- The rank-0 shape has one index. -/
private instance subsingleton_S_ : Subsingleton Cert.Pre_finite_inputs.S_.Idx :=
  ⟨fun a b => funext fun d => d.elim0⟩

/-- A word that is at least 0, compared signed, has its sign bit clear: its value is below 2³¹. -/
private theorem toNat_lt_of_sge_zero (w : BitVec 32) (h : IntOp.cmpi .sge w 0#32 = 1#1) : w.toNat < 2 ^ 31 := by
  unfold IntOp.cmpi at h
  rw [StableHlo.Predicate.ofBool_eq_one_iff] at h
  have h' : (0#32 : BitVec 32).toInt ≤ w.toInt := by simpa only [BitVec.sle, decide_eq_true_eq] using h
  have z : (0#32 : BitVec 32).toInt = 0 := by decide
  rw [z, BitVec.toInt_eq_toNat_cond] at h'
  have hw := w.isLt
  split at h' <;> omega

/-- A word in [0, n) compared signed, n below 2³¹, has its value below n. -/
private theorem toNat_lt_of_signed_range (w : BitVec 32) (n : ℕ) (hn : n < 2 ^ 31)
    (h0 : IntOp.cmpi .sge w 0#32 = 1#1) (h1 : IntOp.cmpi .slt w (BitVec.ofNat 32 n) = 1#1) : w.toNat < n := by
  have hw : w.toNat < 2 ^ 31 := toNat_lt_of_sge_zero w h0
  have hb : (BitVec.ofNat 32 n).toNat = n := by rw [BitVec.toNat_ofNat]; exact Nat.mod_eq_of_lt (by omega)
  have := (StableHlo.Predicate.slt_iff_toNat hw (by rw [hb]; exact hn)).1 h1
  rwa [hb] at this

/-- The printed precondition, all ones, makes every label a class number. -/
theorem inRange_of_fn (x : FVec Ideal Cert.Pre_finite_inputs.S262144x256 .f32) (l : IVec Cert.Pre_finite_inputs.S262144 32)
    (cen : FVec Ideal Cert.Pre_finite_inputs.S1000x256 .f32)
    (h : Cert.Pre_finite_inputs.fn (F := Ideal) x l cen = fun _ => 1#1) : InRange l := by
  intro r hr
  have e := congrFun h ix0
  dsimp only [Cert.Pre_finite_inputs.fn, Cert.Pre_finite_inputs.fn_part1] at e
  -- the result is the conjunction of four; the last two speak of the labels
  obtain ⟨e12, e15⟩ := IntOp.andi_eq_one.1 e
  obtain ⟨-, e11⟩ := IntOp.andi_eq_one.1 e12
  -- each is an all-reduction: read both at row r
  have a0 := Host.reduce_andi_all _ _ _ _ _ e11 (ix1 ⟨r, hr⟩)
  have a1 := Host.reduce_andi_all _ _ _ _ _ e15 (ix1 ⟨r, hr⟩)
  change IntOp.cmpi .sge (l (ix1 ⟨r, hr⟩)) 0#32 = 1#1 at a0
  change IntOp.cmpi .slt (l (ix1 ⟨r, hr⟩)) 1000#32 = 1#1 at a1
  unfold label
  rw [dif_pos hr]
  exact toNat_lt_of_signed_range _ 1000 (by norm_num) a0 a1

/-- So does the kernel's precondition of a launch memory, on every device. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) :=
  inRange_of_fn _ _ _ (h c)

end Cert.KernelIdeal.PreDecode

end
-- ==== Proof.Pieces.lean ====
/-
  What each control case of the two kernel bodies leaves in its output buffers, as a value.

  Pass 1 (per-class sums and counts over one batch tile): at a tile that starts a core's run the body first
  stores a zero block, reads it back and adds the tile's partial sums to it; at every other tile it adds the
  partial sums to what the buffer held. Both are the body's one accumulating payload, over the zero block or over
  the running contents.

  Pass 2 (the tile's summed row distances): the same two cases for the scalar accumulator.

  Each lemma reads a case's covering stores back through the whole staging buffer: one covering store is the
  stored value; a store over a read-back of an earlier covering store is the value over that earlier value.
-/
import proofs.«421600_j48103633715690_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-! ## Pass 1 -/

/-- A tile inside a core's run: the sums buffer holding `acc` ends at `acc + onehotᵀ · x`. -/
theorem sums_step (c : Dev nD) (i : grid0.Coords) (a2 : Memref sig .tc .vmem S8192x256 .f32) (h2 : a2.IsWhole)
    (a3 : Memref sig .tc .vmem S1x1x8192 .i32) (h3 : a3.IsWhole) (a4 : Memref sig .tc .vmem S1x1024x256 .f32) (h4 : a4.IsWhole)
    (a5 : Memref sig .tc .vmem S1x1024x1 .f32) (h5 : a5.IsWhole) (hc : ¬cond0_0 i)
    (x0 : Vec F S8192x256 .f32) (x1 : Vec F S1x1x8192 .i32) (xo2 : Vec F S1x1024x256 .f32) (xo3 : Vec F S1x1024x1 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero zero3]
  simp only [View.readAt_eq_ld, h2.read_unread, h3.read_unread, h4.read_unread,
    View.ld_unit_zero (S := S1x1x8192) zero3, View.ld_unit_zero (S := S8192x256) zero2,
    View.ld_unit_zero (S := S1x1024x256) zero3]

/-- A tile inside a core's run: the counts buffer holding `acc` ends at `acc + onehotᵀ · 1`. -/
theorem counts_step (c : Dev nD) (i : grid0.Coords) (a2 : Memref sig .tc .vmem S8192x256 .f32) (h2 : a2.IsWhole)
    (a3 : Memref sig .tc .vmem S1x1x8192 .i32) (h3 : a3.IsWhole) (a4 : Memref sig .tc .vmem S1x1024x256 .f32) (h4 : a4.IsWhole)
    (a5 : Memref sig .tc .vmem S1x1024x1 .f32) (h5 : a5.IsWhole) (hc : ¬cond0_0 i)
    (x0 : Vec F S8192x256 .f32) (x1 : Vec F S1x1x8192 .i32) (xo2 : Vec F S1x1024x256 .f32) (xo3 : Vec F S1x1024x1 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero zero3]
  simp only [View.readAt_eq_ld, h3.read_unread, h5.read_unread,
    View.ld_unit_zero (S := S1x1x8192) zero3, View.ld_unit_zero (S := S1x1024x1) zero3]

/-- The tile that starts a core's run: the sums buffer ends at `0 + onehotᵀ · x`. -/
theorem sums_first (c : Dev nD) (i : grid0.Coords) (a2 : Memref sig .tc .vmem S8192x256 .f32) (h2 : a2.IsWhole)
    (a3 : Memref sig .tc .vmem S1x1x8192 .i32) (h3 : a3.IsWhole) (a4 : Memref sig .tc .vmem S1x1024x256 .f32) (h4 : a4.IsWhole)
    (a5 : Memref sig .tc .vmem S1x1024x1 .f32) (h5 : a5.IsWhole) (hc : cond0_0 i)
    (x0 : Vec F S8192x256 .f32) (x1 : Vec F S1x1x8192 .i32) :
    out0_A_2 c i a2 h2 a3 h3 a4 h4 a5 h5 hc x0 x1 = k0_pay4 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x256) zero3, View.readCov_unit_zero (S := S1x1024x256) _ zero3]
  simp only [View.readAt_eq_ld, h2.read_unread, h3.read_unread,
    View.ld_unit_zero (S := S1x1x8192) zero3, View.ld_unit_zero (S := S8192x256) zero2]

/-- The tile that starts a core's run: the counts buffer ends at `0 + onehotᵀ · 1`. -/
theorem counts_first (c : Dev nD) (i : grid0.Coords) (a2 : Memref sig .tc .vmem S8192x256 .f32) (h2 : a2.IsWhole)
    (a3 : Memref sig .tc .vmem S1x1x8192 .i32) (h3 : a3.IsWhole) (a4 : Memref sig .tc .vmem S1x1024x256 .f32) (h4 : a4.IsWhole)
    (a5 : Memref sig .tc .vmem S1x1024x1 .f32) (h5 : a5.IsWhole) (hc : cond0_0 i)
    (x0 : Vec F S8192x256 .f32) (x1 : Vec F S1x1x8192 .i32) :
    out0_A_3 c i a2 h2 a3 h3 a4 h4 a5 h5 hc x0 x1 = k0_pay5 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1024x1) zero3, View.readCov_unit_zero (S := S1x1024x1) _ zero3]
  simp only [View.readAt_eq_ld, h3.read_unread, View.ld_unit_zero (S := S1x1x8192) zero3]

/-! ## Pass 2 -/

/-- A tile inside a core's run: the scalar accumulator holding `acc` ends at `acc + Σ rows ‖x − center‖`. -/
theorem loss_step (c : Dev nD) (i : grid1.Coords) (a2 : Memref sig .tc .vmem S8192x256 .f32) (h2 : a2.IsWhole)
    (a3 : Memref sig .tc .vmem S1x1x8192 .i32) (h3 : a3.IsWhole) (a4 : Memref sig .tc .vmem S1024x256 .f32) (h4 : a4.IsWhole)
    (a5 : Memref sig .tc .vmem S1x1x1 .f32) (h5 : a5.IsWhole) (hc : ¬cond1_0 i)
    (x0 : Vec F S8192x256 .f32) (x1 : Vec F S1x1x8192 .i32) (x2 : Vec F S1024x256 .f32) (xo3 : Vec F S1x1x1 .f32) :
    out1_B_3 c i a2 h2 a3 h3 a4 h4 a5 h5 hc x0 x1 x2 xo3 = k1_pay2 x1 x2 x0 xo3 := by
  unfold out1_B_3
  rw [View.read_writes_eq_canon _ _ _ (cover1_B_3 c i a2 h2 a3 h3 a4 h4 a5 h5 hc x0 x1 x2 xo3)]
  unfold kernelRun1_B
  dsimp only
  sl_unfold_words
  rw [View.canon_unit_zero zero3]
  simp only [View.readAt_eq_ld, h2.read_unread, h3.read_unread, h4.read_unread, h5.read_unread,
    View.ld_unit_zero (S := S1x1x8192) zero3, View.ld_unit_zero (S := S8192x256) zero2,
    View.ld_unit_zero (S := S1024x256) zero2, View.ld_unit_zero (S := S1x1x1) zero3]

/-- The tile that starts a core's run: the scalar accumulator ends at `0 + Σ rows ‖x − center‖`. -/
theorem loss_first (c : Dev nD) (i : grid1.Coords) (a2 : Memref sig .tc .vmem S8192x256 .f32) (h2 : a2.IsWhole)
    (a3 : Memref sig .tc .vmem S1x1x8192 .i32) (h3 : a3.IsWhole) (a4 : Memref sig .tc .vmem S1024x256 .f32) (h4 : a4.IsWhole)
    (a5 : Memref sig .tc .vmem S1x1x1 .f32) (h5 : a5.IsWhole) (hc : cond1_0 i)
    (x0 : Vec F S8192x256 .f32) (x1 : Vec F S1x1x8192 .i32) (x2 : Vec F S1024x256 .f32) :
    out1_A_3 c i a2 h2 a3 h3 a4 h4 a5 h5 hc x0 x1 x2 = k1_pay2 x1 x2 x0 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) zero3, View.readCov_unit_zero (S := S1x1x1) _ zero3]
  simp only [View.readAt_eq_ld, h2.read_unread, h3.read_unread, h4.read_unread,
    View.ld_unit_zero (S := S1x1x8192) zero3, View.ld_unit_zero (S := S8192x256) zero2,
    View.ld_unit_zero (S := S1024x256) zero2]

end Cert.KernelIdeal.Pieces
end
-- ==== Proof.PayloadsAt.lean ====
/-
  The kernel bodies' arithmetic read at an index, over the extended reals.

  Pass 1, one batch tile of 8192 rows: entry (k, d) of the sums block grows by the tile's rows of class k, feature d,
  and entry k of the counts block by their number — a matrix product with the one-hot of the labels is that sum, a row
  weighing 1 in its own class and 0 elsewhere. Pass 2: the scalar grows by the tile's rows' distances to the center the
  one-hot product selects for each row.

  How the readings go. The one-hot entry is the comparison bit of the class number with the label word, widened and read
  as a number: 1 when the word is that class, 0 otherwise. A product into the zero block, read at an index, is the sum over
  the contraction index of the operands' products; the contraction index has one axis, so the sum is re-indexed by that
  axis's coordinate, and the two operand indices are then the pairs (row, coordinate) and (coordinate, column). A block
  [1, a, b] and its view [a, b] hold the same entries, a sum along the feature axis is the sum over that axis's coordinates,
  and the sum of a [1, 8192, 1] block into one number is the sum over its middle coordinate.
-/
import proofs.«421600_j48103633715690_3_alg».proof.Proof.Gen.KernelIdeal.Skeleton
import proofs.«421600_j48103633715690_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

namespace Cert.KernelIdeal.PayloadsAt

open Cert.KernelIdeal Cert.KernelIdeal.Gen Cert.CenterLoss
open Idealize.ShloMosaic Idealize.ShloMosaic.ValueIdx

/-- The reset blocks hold zeros. -/
theorem zeroSums_apply (i : S1x1024x256.Idx) : k0_pay1 (F := Ideal) i = 0 := by
  unfold k0_pay1
  show Ideal.ofBits .f32 0x00000000#32 = 0
  exact Ideal.ofBits_zero_f32
theorem zeroCounts_apply (i : S1x1024x1.Idx) : k0_pay2 (F := Ideal) i = 0 := by
  unfold k0_pay2
  show Ideal.ofBits .f32 0x00000000#32 = 0
  exact Ideal.ofBits_zero_f32
theorem zeroLoss_apply (i : S1x1x1.Idx) : k1_pay1 (F := Ideal) i = 0 := by
  unfold k1_pay1
  show Ideal.ofBits .f32 0x00000000#32 = 0
  exact Ideal.ofBits_zero_f32

/-! ## The one-hot entry -/

/-- The comparison bit of the class number with the label word, widened to 32 bits and read as a number, is the weight
    of the label in that class: 1 when the word is the class number, 0 otherwise. -/
private theorem hotWord (w : BitVec 32) (k : ℕ) :
    ((((IntOp.cmpi .eq (BitVec.ofNat 32 k) w).setWidth 32).toInt : ℝ) : EReal) = hot w k := by
  unfold hot
  by_cases h : w = BitVec.ofNat 32 k
  · rw [if_pos h]
    have e : IntOp.cmpi .eq (BitVec.ofNat 32 k) w = 1#1 := StableHlo.Predicate.cmpi_eq_iff.mpr h.symm
    have e1 : ((1#1 : BitVec 1).setWidth 32).toInt = 1 := by decide
    rw [e, e1]; simp
  · rw [if_neg h]
    have e : IntOp.cmpi .eq (BitVec.ofNat 32 k) w = 0#1 :=
      eq_zero_of_ne_one fun h1 => h (StableHlo.Predicate.cmpi_eq_iff.mp h1).symm
    have e1 : ((0#1 : BitVec 1).setWidth 32).toInt = 0 := by decide
    rw [e, e1]; simp

/-- Pass 1's one-hot matrix, classes by rows: entry (k, r) is the weight of row r's label in class k. The class number
    is the entry's coordinate on the class axis; the label row is repeated over the classes. -/
private theorem onehot1_apply (lb : Vec Ideal S1x1x8192 .i32) (k : Fin 1024) (r : Fin 8192) :
    k0_pay3 (F := Ideal) lb (ix2 k r) = hot (lb (ix3 (0 : Fin 1) (0 : Fin 1) r)) k.val := by
  unfold k0_pay3
  show ((((IntOp.cmpi .eq (iota .tc S1024x8192 32 [0] iota_S1024x8192_d0_w32 (ix2 k r))
      (broadcastTo S1024x8192 (shapeCast S1x8192 lb shapeCasts_S1x1x8192_S1x8192) broadcasts_S1x8192_S1024x8192
        (ix2 k r))).setWidth 32).toInt : ℝ) : EReal) = _
  rw [iota_single_apply, broadcastTo_1b_ab_apply, shapeCast_1ab_ab_apply]
  exact hotWord _ _

/-! ## Pass 1: the class sums -/

/-- The [1024, 8192] × [8192, 256] product's operand indices: off the contracted axis each keeps the result's
    coordinate, … -/
private theorem lhsA_0 (j : S1024x256.Idx) (q : dot_S1024x8192_S8192x256_S1024x256_1_0_0_1_n_n.contr.Idx) :
    (dot_S1024x8192_S8192x256_S1024x256_1_0_0_1_n_n.lhsIdx j q 0 : ℕ) = j 0 := by
  simp [DotDims.lhsIdx, dot_S1024x8192_S8192x256_S1024x256_1_0_0_1_n_n]
  rfl
private theorem rhsA_1 (j : S1024x256.Idx) (q : dot_S1024x8192_S8192x256_S1024x256_1_0_0_1_n_n.contr.Idx) :
    (dot_S1024x8192_S8192x256_S1024x256_1_0_0_1_n_n.rhsIdx j q 1 : ℕ) = j 1 := by
  simp [DotDims.rhsIdx, dot_S1024x8192_S8192x256_S1024x256_1_0_0_1_n_n]
  rfl
/-- … and on it the contraction coordinate: at result (k, d) and contraction coordinate r the operands are read at
    (k, r) and (r, d). -/
private theorem lhsA (k : Fin 1024) (d : Fin 256) (r : Fin 8192) :
    dot_S1024x8192_S8192x256_S1024x256_1_0_0_1_n_n.lhsIdx (ix2 k d)
        ((contrEquiv1 dot_S1024x8192_S8192x256_S1024x256_1_0_0_1_n_n 8192 rfl rfl).symm r) = ix2 k r :=
  Shape.idx_ext₂ (lhsA_0 _ _)
    ((DotDims.lhsIdx_val_of_single _ (cl := 1) rfl _ _).trans (contrEquiv1_symm_val _ 8192 rfl rfl r))
private theorem rhsA (k : Fin 1024) (d : Fin 256) (r : Fin 8192) :
    dot_S1024x8192_S8192x256_S1024x256_1_0_0_1_n_n.rhsIdx (ix2 k d)
        ((contrEquiv1 dot_S1024x8192_S8192x256_S1024x256_1_0_0_1_n_n 8192 rfl rfl).symm r) = ix2 r d :=
  Shape.idx_ext₂
    ((DotDims.rhsIdx_val_of_single _ (cr := 0) rfl _ _).trans (contrEquiv1_symm_val _ 8192 rfl rfl r))
    (rhsA_1 _ _)

/-- One tile's step of the class sums at (k, d): what was there plus the tile's rows of class k, feature d. -/
theorem sums_apply (lb : Vec Ideal S1x1x8192 .i32) (xb : Vec Ideal S8192x256 .f32) (acc : Vec Ideal S1x1024x256 .f32)
    (k : Fin 1024) (d : Fin 256) :
    k0_pay4 lb xb acc (ix3 (0 : Fin 1) k d)
      = acc (ix3 (0 : Fin 1) k d) + ∑ r : Fin 8192, hot (lb (ix3 (0 : Fin 1) (0 : Fin 1) r)) k.val * xb (ix2 r d) := by
  unfold k0_pay4
  -- the stored block [1, 1024, 256] at (0, k, d) is the sum [1024, 256] at (k, d): the old entry plus the product's
  refine (shapeCast_ab_1ab_apply _ _ (0 : Fin 1) k d).trans ?_
  refine congrArg₂ (· + ·) (shapeCast_1ab_ab_apply acc _ k d) ?_
  -- the product into zeros is the sum over the contraction index, re-indexed by the rows of the tile
  refine (Ideal.matmul_constant_zero_apply _ none _ _ (ix2 k d)).trans ?_
  rw [← Equiv.sum_comp (contrEquiv1 dot_S1024x8192_S8192x256_S1024x256_1_0_0_1_n_n 8192 rfl rfl).symm]
  refine Finset.sum_congr rfl fun r _ => ?_
  rw [lhsA, rhsA, onehot1_apply]
  -- the change of format of the batch tile is the identity
  rfl

/-! ## Pass 1: the class counts -/

/-- The [1024, 8192] × [8192, 1] product's left operand index at result (k, 0) and contraction coordinate r is (k, r). -/
private theorem lhsB_0 (j : S1024x1.Idx) (q : dot_S1024x8192_S8192x1_S1024x1_1_0_0_1_n_n.contr.Idx) :
    (dot_S1024x8192_S8192x1_S1024x1_1_0_0_1_n_n.lhsIdx j q 0 : ℕ) = j 0 := by
  simp [DotDims.lhsIdx, dot_S1024x8192_S8192x1_S1024x1_1_0_0_1_n_n]
  rfl
private theorem lhsB (k : Fin 1024) (r : Fin 8192) :
    dot_S1024x8192_S8192x1_S1024x1_1_0_0_1_n_n.lhsIdx (ix2 k (0 : Fin 1))
        ((contrEquiv1 dot_S1024x8192_S8192x1_S1024x1_1_0_0_1_n_n 8192 rfl rfl).symm r) = ix2 k r :=
  Shape.idx_ext₂ (lhsB_0 _ _)
    ((DotDims.lhsIdx_val_of_single _ (cl := 1) rfl _ _).trans (contrEquiv1_symm_val _ 8192 rfl rfl r))

/-- The 16-bit word 0x3F80 denotes the number one. -/
private theorem one_bf16 : Scalar.ofBits (F := Ideal) .bf16 0x3F80#16 = 1 :=
  IdealRules.sign_bit.ideal_onePat .bf16

/-- One tile's step of the class counts at k: what was there plus the number of the tile's rows of class k. -/
theorem counts_apply (lb : Vec Ideal S1x1x8192 .i32) (acc : Vec Ideal S1x1024x1 .f32) (k : Fin 1024) :
    k0_pay5 lb acc (ix3 (0 : Fin 1) k (0 : Fin 1))
      = acc (ix3 (0 : Fin 1) k (0 : Fin 1)) + ∑ r : Fin 8192, hot (lb (ix3 (0 : Fin 1) (0 : Fin 1) r)) k.val := by
  unfold k0_pay5
  refine (shapeCast_ab_1ab_apply _ _ (0 : Fin 1) k (0 : Fin 1)).trans ?_
  refine congrArg₂ (· + ·) (shapeCast_1ab_ab_apply acc _ k (0 : Fin 1)) ?_
  refine (Ideal.matmul_constant_zero_apply _ none _ _ (ix2 k (0 : Fin 1))).trans ?_
  rw [← Equiv.sum_comp (contrEquiv1 dot_S1024x8192_S8192x1_S1024x1_1_0_0_1_n_n 8192 rfl rfl).symm]
  refine Finset.sum_congr rfl fun r _ => ?_
  rw [lhsB, onehot1_apply]
  -- the right operand is the column of ones: each row's weight is multiplied by one
  show _ * Scalar.ofBits (F := Ideal) .bf16 0x3F80#16 = _
  rw [one_bf16, mul_one]

/-! ## Pass 2: the summed distances -/

/-- The [8192, 1024] × [1024, 256] product's operand indices: at result (r, d) and contraction coordinate k the operands
    are read at (r, k) and (k, d). -/
private theorem lhsC_0 (j : S8192x256.Idx) (q : dot_S8192x1024_S1024x256_S8192x256_1_0_0_1_n_n.contr.Idx) :
    (dot_S8192x1024_S1024x256_S8192x256_1_0_0_1_n_n.lhsIdx j q 0 : ℕ) = j 0 := by
  simp [DotDims.lhsIdx, dot_S8192x1024_S1024x256_S8192x256_1_0_0_1_n_n]
  rfl
private theorem rhsC_1 (j : S8192x256.Idx) (q : dot_S8192x1024_S1024x256_S8192x256_1_0_0_1_n_n.contr.Idx) :
    (dot_S8192x1024_S1024x256_S8192x256_1_0_0_1_n_n.rhsIdx j q 1 : ℕ) = j 1 := by
  simp [DotDims.rhsIdx, dot_S8192x1024_S1024x256_S8192x256_1_0_0_1_n_n]
  rfl
private theorem lhsC (r : Fin 8192) (d : Fin 256) (k : Fin 1024) :
    dot_S8192x1024_S1024x256_S8192x256_1_0_0_1_n_n.lhsIdx (ix2 r d)
        ((contrEquiv1 dot_S8192x1024_S1024x256_S8192x256_1_0_0_1_n_n 1024 rfl rfl).symm k) = ix2 r k :=
  Shape.idx_ext₂ (lhsC_0 _ _)
    ((DotDims.lhsIdx_val_of_single _ (cl := 1) rfl _ _).trans (contrEquiv1_symm_val _ 1024 rfl rfl k))
private theorem rhsC (r : Fin 8192) (d : Fin 256) (k : Fin 1024) :
    dot_S8192x1024_S1024x256_S8192x256_1_0_0_1_n_n.rhsIdx (ix2 r d)
        ((contrEquiv1 dot_S8192x1024_S1024x256_S8192x256_1_0_0_1_n_n 1024 rfl rfl).symm k) = ix2 k d :=
  Shape.idx_ext₂
    ((DotDims.rhsIdx_val_of_single _ (cr := 0) rfl _ _).trans (contrEquiv1_symm_val _ 1024 rfl rfl k))
    (rhsC_1 _ _)

/-- Pass 2's one-hot matrix, rows by classes: the label row turned into a column and repeated over the classes, compared
    with the class numbers along the class axis. -/
private def oh2 (lb : Vec Ideal S1x1x8192 .i32) : FVec Ideal S8192x1024 .bf16 :=
  truncf .bf16 (sitofp .f32 (extui 32 (cmpi .eq (iota .tc S8192x1024 32 [1] iota_S8192x1024_d1_w32)
    (broadcastTo S8192x1024 (transpose S8192x1 [1, 0] (shapeCast S1x8192 lb shapeCasts_S1x1x8192_S1x8192)
      transposes_S1x8192_p1_0_S8192x1) broadcasts_S8192x1_S8192x1024)) natLt_1_32)) bitsLt_bf16_f32

/-- Its entry (r, k) is the weight of row r's label in class k. -/
private theorem oh2_apply (lb : Vec Ideal S1x1x8192 .i32) (r : Fin 8192) (k : Fin 1024) :
    oh2 lb (ix2 r k) = hot (lb (ix3 (0 : Fin 1) (0 : Fin 1) r)) k.val := by
  unfold oh2
  show ((((IntOp.cmpi .eq (iota .tc S8192x1024 32 [1] iota_S8192x1024_d1_w32 (ix2 r k))
      (broadcastTo S8192x1024 (transpose S8192x1 [1, 0] (shapeCast S1x8192 lb shapeCasts_S1x1x8192_S1x8192)
        transposes_S1x8192_p1_0_S8192x1) broadcasts_S8192x1_S8192x1024 (ix2 r k))).setWidth 32).toInt : ℝ) : EReal) = _
  -- the column [8192, 1] repeated along the class axis reads (r, 0) at (r, k); the column is the row transposed
  rw [iota_single_apply,
    broadcastTo_apply _ _ (ix2 r k) (ix2 r (0 : Fin 1)) (fun a => match a with | ⟨0, _⟩ => rfl | ⟨1, _⟩ => rfl),
    transpose_ix2_apply, shapeCast_1ab_ab_apply]
  exact hotWord _ _

/-- The center each row's label selects from the table: the one-hot matrix times the table. -/
private def sel (lb : Vec Ideal S1x1x8192 .i32) (cb : Vec Ideal S1024x256 .f32) : FVec Ideal S8192x256 .f32 :=
  matmul dot_S8192x1024_S1024x256_S8192x256_1_0_0_1_n_n none (oh2 lb)
    (truncf .bf16 (shapeCast S1024x256 cb shapeCasts_S1024x256_S1024x256) bitsLt_bf16_f32)
    (constant S8192x256 .f32 0x00000000#32)

/-- At (r, d) it is the sum over the classes of row r's weight in the class times the class's center's feature d. -/
private theorem sel_apply (lb : Vec Ideal S1x1x8192 .i32) (cb : Vec Ideal S1024x256 .f32) (r : Fin 8192) (d : Fin 256) :
    sel lb cb (ix2 r d) = ∑ k : Fin 1024, hot (lb (ix3 (0 : Fin 1) (0 : Fin 1) r)) k.val * cb (ix2 k d) := by
  unfold sel
  refine (Ideal.matmul_constant_zero_apply _ none _ _ (ix2 r d)).trans ?_
  rw [← Equiv.sum_comp (contrEquiv1 dot_S8192x1024_S1024x256_S8192x256_1_0_0_1_n_n 1024 rfl rfl).symm]
  refine Finset.sum_congr rfl fun k _ => ?_
  rw [lhsC, rhsC, oh2_apply]
  -- the table's change of format is the identity, and so is its cast to its own shape
  show _ * shapeCast S1024x256 cb shapeCasts_S1024x256_S1024x256 (ix2 k d) = _
  rw [shapeCast_self]

/-- A [1, n, 1] index set is its middle coordinate's range. -/
private def midEquiv (n : ℕ) : (⟨3, ![1, n, 1]⟩ : Shape).Idx ≃ Fin n where
  toFun i := i 1
  invFun r := ix3 (0 : Fin 1) r (0 : Fin 1)
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- One tile's step of the summed distances: what was there plus, over the tile's rows, the distance of the row to the
    center its label selects from the (padded) table `cb`. -/
theorem loss_apply (lb : Vec Ideal S1x1x8192 .i32) (cb : Vec Ideal S1024x256 .f32) (xb : Vec Ideal S8192x256 .f32)
    (acc : Vec Ideal S1x1x1 .f32) :
    k1_pay2 lb cb xb acc (ix3 (0 : Fin 1) (0 : Fin 1) (0 : Fin 1))
      = acc (ix3 (0 : Fin 1) (0 : Fin 1) (0 : Fin 1))
        + ∑ r : Fin 8192, Ideal.sqrt (∑ d : Fin 256,
            (xb (ix2 r d) - ∑ k : Fin 1024, hot (lb (ix3 (0 : Fin 1) (0 : Fin 1) r)) k.val * cb (ix2 k d))
            * (xb (ix2 r d) - ∑ k : Fin 1024, hot (lb (ix3 (0 : Fin 1) (0 : Fin 1) r)) k.val * cb (ix2 k d))) := by
  unfold k1_pay2
  -- the stored block [1, 1, 1] at its one index is the [1, 1] sum at its one index: the old entry plus the tile's total
  refine (shapeCast_ab_1ab_apply _ _ (0 : Fin 1) (0 : Fin 1) (0 : Fin 1)).trans ?_
  refine congrArg₂ (· + ·) (shapeCast_1ab_ab_apply acc _ (0 : Fin 1) (0 : Fin 1)) ?_
  -- the tile's total: the one entry of the sum of the [1, 8192, 1] block of distances, whatever index it is read at
  show multiReduction (F := Ideal) .add [1, 2] S1
      (shapeCast S1x8192x1 (sqrt (shapeCast S8192x1 (multiReduction (F := Ideal) .add [1] S8192
        (mulf (subf xb (sel lb cb)) (subf xb (sel lb cb))) 0x00000000#32 reduces_S8192x256_S8192 (.inl rfl) rfl)
        shapeCasts_S8192_S8192x1)) shapeCasts_S8192x1_S1x8192x1)
      0x00000000#32 reduces_S1x8192x1_S1 (.inl rfl) rfl (Shape.reshapeEquiv _ _) = _
  refine (Ideal.multiReduction_add_total _ _ _ (by decide) _ _ _).trans ?_
  -- … which is the sum over the rows
  rw [← Equiv.sum_comp (midEquiv 8192).symm]
  refine Finset.sum_congr rfl fun r _ => ?_
  show shapeCast S1x8192x1 _ shapeCasts_S8192x1_S1x8192x1 (ix3 (0 : Fin 1) r (0 : Fin 1)) = _
  refine (shapeCast_ab_1ab_apply _ _ (0 : Fin 1) r (0 : Fin 1)).trans ?_
  -- row r's distance: the square root of the row's entry of the sum along the feature axis
  refine congrArg Ideal.sqrt ?_
  refine (shapeCast_apply _ _ (ix2 r (0 : Fin 1)) (ix1 r) (by
    rw [Shape.rowMajor_val_one, Shape.rowMajor_val_two]
    show r.val = r.val * 1 + 0
    omega)).trans ?_
  refine (Ideal.multiReduction_add_single _ _ _ _ _ (ix1 r)).trans ?_
  refine Finset.sum_congr rfl fun (d : Fin 256) _ => ?_
  rw [show reduces_S8192x256_S8192.lift (ix1 r) d = ix2 r d from Shape.idx_ext₂ rfl rfl]
  -- the squared difference of the row's feature and the selected center's
  show (xb (ix2 r d) - sel lb cb (ix2 r d)) * (xb (ix2 r d) - sel lb cb (ix2 r d)) = _
  exact congrArg (fun t => (xb (ix2 r d) - t) * (xb (ix2 r d) - t)) (sel_apply lb cb r d)

end Cert.KernelIdeal.PayloadsAt

end
-- ==== Proof.SumsFold.lean ====
/-
  Pass 1, point by point. A core's run is sixteen consecutive batch tiles; the first resets the two accumulators and every
  tile adds its rows' class sums and class counts. So after tile t the sums buffer holds, at (k, d), the sum over the
  tiles of t's run up to t of the tile's rows of class k at feature d, and the counts buffer their number.
-/
import proofs.«421600_j48103633715690_3_alg».proof.Proof.Pieces
import proofs.«421600_j48103633715690_3_alg».proof.Proof.PayloadsAt
import Idealize.ShloMosaic.Lib.Pipeline.Value

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Sums
open Cert.KernelIdeal Cert.KernelIdeal.Gen Cert.CenterLoss

variable (V : (c : Dev nD) → (b : Ref sig .tc) → Buf (Elt Ideal) ((c : Thread nD τ).loc b))

/-- Tile t's rows and labels as the pipeline stages them. -/
abbrev xblk (c : Dev nD) (t : Fin cfg0.N) : Vec Ideal S8192x256 .f32 := iblk0 V c 0 t
abbrev lblk (c : Dev nD) (t : Fin cfg0.N) : Vec Ideal S1x1x8192 .i32 := iblk0 V c 1 t

/-- Tile n's rows of class k, summed at feature d. -/
def tileSum (c : Dev nD) (n k d : ℕ) : EReal :=
  if h : n < cfg0.N ∧ d < 256 then
    ∑ r : Fin 8192, hot (lblk V c ⟨n, h.1⟩ (ix3 (0 : Fin 1) (0 : Fin 1) r)) k * xblk V c ⟨n, h.1⟩ (ix2 r ⟨d, h.2⟩)
  else 0

/-- The number of tile n's rows of class k. -/
def tileCount (c : Dev nD) (n k : ℕ) : EReal :=
  if h : n < cfg0.N then ∑ r : Fin 8192, hot (lblk V c ⟨n, h⟩ (ix3 (0 : Fin 1) (0 : Fin 1) r)) k else 0

theorem idx_sums (i : S1x1024x256.Idx) : i = ix3 (0 : Fin 1) (i 1) (i 2) := by
  funext a
  match a with
  | ⟨0, _⟩ => exact Fin.ext (by have h : (i 0).val < 1 := (i 0).isLt; show (i 0).val = 0; omega)
  | ⟨1, _⟩ => rfl
  | ⟨2, _⟩ => rfl

theorem idx_counts (i : S1x1024x1.Idx) : i = ix3 (0 : Fin 1) (i 1) (0 : Fin 1) := by
  funext a
  match a with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- One tile's step of the sums, at any index. -/
theorem step_sums (c : Dev nD) (n : ℕ) (h : n < cfg0.N) (acc : Vec Ideal S1x1024x256 .f32) (i : S1x1024x256.Idx) :
    k0_pay4 (lblk V c ⟨n, h⟩) (xblk V c ⟨n, h⟩) acc i = acc i + tileSum V c n (i 1).val (i 2).val := by
  obtain ⟨k, d, rfl⟩ : ∃ (k : Fin 1024) (d : Fin 256), i = ix3 (0 : Fin 1) k d := ⟨i 1, i 2, idx_sums i⟩
  show _ = _ + tileSum V c n k.val d.val
  rw [tileSum, dif_pos ⟨h, d.isLt⟩]
  exact PayloadsAt.sums_apply (lblk V c ⟨n, h⟩) (xblk V c ⟨n, h⟩) acc k d

/-- One tile's step of the counts, at any index. -/
theorem step_counts (c : Dev nD) (n : ℕ) (h : n < cfg0.N) (acc : Vec Ideal S1x1024x1 .f32) (i : S1x1024x1.Idx) :
    k0_pay5 (lblk V c ⟨n, h⟩) acc i = acc i + tileCount V c n (i 1).val := by
  obtain ⟨k, rfl⟩ : ∃ (k : Fin 1024), i = ix3 (0 : Fin 1) k (0 : Fin 1) := ⟨i 1, idx_counts i⟩
  show _ = _ + tileCount V c n k.val
  rw [tileCount, dif_pos h]
  exact PayloadsAt.counts_apply (lblk V c ⟨n, h⟩) acc k

/-- The first tile of a run: the sums buffer holds the tile's step over zeros. -/
theorem reset_sums (c : Dev nD) (n : ℕ) (h : n < cfg0.N) (h0 : n % 16 = 0) :
    (outsAt0 V c n h).1 = k0_pay4 (lblk V c ⟨n, h⟩) (xblk V c ⟨n, h⟩) (k0_pay1 (F := Ideal)) := by
  show (outsAt0 V c (⟨n, h⟩ : Fin cfg0.N).val (⟨n, h⟩ : Fin cfg0.N).isLt).1 = _
  rw [outsAt0_A V c ⟨n, h⟩ h0]
  dsimp only
  exact Pieces.sums_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (xblk V c ⟨n, h⟩) (lblk V c ⟨n, h⟩)

/-- The first tile of a run: the counts buffer holds the tile's step over zeros. -/
theorem reset_counts (c : Dev nD) (n : ℕ) (h : n < cfg0.N) (h0 : n % 16 = 0) :
    (outsAt0 V c n h).2 = k0_pay5 (lblk V c ⟨n, h⟩) (k0_pay2 (F := Ideal)) := by
  show (outsAt0 V c (⟨n, h⟩ : Fin cfg0.N).val (⟨n, h⟩ : Fin cfg0.N).isLt).2 = _
  rw [outsAt0_A V c ⟨n, h⟩ h0]
  dsimp only
  exact Pieces.counts_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (xblk V c ⟨n, h⟩) (lblk V c ⟨n, h⟩)

/-- Every other tile: the sums buffer holds the tile's step over what the tile before left. -/
theorem next_sums (c : Dev nD) (n : ℕ) (h : n + 1 < cfg0.N) (h0 : ¬(n + 1) % 16 = 0) :
    (outsAt0 V c (n + 1) h).1
      = k0_pay4 (lblk V c ⟨n + 1, h⟩) (xblk V c ⟨n + 1, h⟩) (outsAt0 V c n (Nat.lt_of_succ_lt h)).1 := by
  show (outsAt0 V c (⟨n + 1, h⟩ : Fin cfg0.N).val (⟨n + 1, h⟩ : Fin cfg0.N).isLt).1 = _
  rw [outsAt0_B V c ⟨n + 1, h⟩ h0]
  dsimp only
  exact Pieces.sums_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh))
    (xblk V c ⟨n + 1, h⟩) (lblk V c ⟨n + 1, h⟩) (outsAt0 V c n (Nat.lt_of_succ_lt h)).1 (outsAt0 V c n (Nat.lt_of_succ_lt h)).2

/-- Every other tile: the counts buffer holds the tile's step over what the tile before left. -/
theorem next_counts (c : Dev nD) (n : ℕ) (h : n + 1 < cfg0.N) (h0 : ¬(n + 1) % 16 = 0) :
    (outsAt0 V c (n + 1) h).2 = k0_pay5 (lblk V c ⟨n + 1, h⟩) (outsAt0 V c n (Nat.lt_of_succ_lt h)).2 := by
  show (outsAt0 V c (⟨n + 1, h⟩ : Fin cfg0.N).val (⟨n + 1, h⟩ : Fin cfg0.N).isLt).2 = _
  rw [outsAt0_B V c ⟨n + 1, h⟩ h0]
  dsimp only
  exact Pieces.counts_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh))
    (xblk V c ⟨n + 1, h⟩) (lblk V c ⟨n + 1, h⟩) (outsAt0 V c n (Nat.lt_of_succ_lt h)).1 (outsAt0 V c n (Nat.lt_of_succ_lt h)).2

/-- The fold's two functions for the sums: the reset value at a run's first tile, and a later tile's step. -/
def sumsReset (c : Dev nD) (n : ℕ) (h : n < cfg0.N) : Vec Ideal S1x1024x256 .f32 :=
  k0_pay4 (lblk V c ⟨n, h⟩) (xblk V c ⟨n, h⟩) (k0_pay1 (F := Ideal))
def sumsStep (c : Dev nD) (n : ℕ) (h : n < cfg0.N) (acc : Vec Ideal S1x1024x256 .f32) : Vec Ideal S1x1024x256 .f32 :=
  k0_pay4 (lblk V c ⟨n, h⟩) (xblk V c ⟨n, h⟩) acc
/-- The same for the counts. -/
def countsReset (c : Dev nD) (n : ℕ) (h : n < cfg0.N) : Vec Ideal S1x1024x1 .f32 :=
  k0_pay5 (lblk V c ⟨n, h⟩) (k0_pay2 (F := Ideal))
def countsStep (c : Dev nD) (n : ℕ) (h : n < cfg0.N) (acc : Vec Ideal S1x1024x1 .f32) : Vec Ideal S1x1024x1 .f32 :=
  k0_pay5 (lblk V c ⟨n, h⟩) acc

theorem sumsReset_apply (c : Dev nD) (n : ℕ) (h : n < cfg0.N) (i : S1x1024x256.Idx) :
    sumsReset V c n h i = 0 + tileSum V c n (i 1).val (i 2).val := by
  unfold sumsReset; rw [step_sums V c n h, PayloadsAt.zeroSums_apply]
theorem sumsStep_apply (c : Dev nD) (n : ℕ) (h : n < cfg0.N) (acc : Vec Ideal S1x1024x256 .f32) (i : S1x1024x256.Idx) :
    sumsStep V c n h acc i = acc i + tileSum V c n (i 1).val (i 2).val := by
  unfold sumsStep; exact step_sums V c n h acc i
theorem countsReset_apply (c : Dev nD) (n : ℕ) (h : n < cfg0.N) (i : S1x1024x1.Idx) :
    countsReset V c n h i = 0 + tileCount V c n (i 1).val := by
  unfold countsReset; rw [step_counts V c n h, PayloadsAt.zeroCounts_apply]
theorem countsStep_apply (c : Dev nD) (n : ℕ) (h : n < cfg0.N) (acc : Vec Ideal S1x1024x1 .f32) (i : S1x1024x1.Idx) :
    countsStep V c n h acc i = acc i + tileCount V c n (i 1).val := by
  unfold countsStep; exact step_counts V c n h acc i

/-- After tile t the sums buffer holds the class sums of the tiles of t's run up to t. -/
theorem sums_at (c : Dev nD) (t : ℕ) (ht : t < cfg0.N) (i : S1x1024x256.Idx) :
    (outsAt0 V c t ht).1 i = ∑ s ∈ Finset.range (t % 16 + 1), tileSum V c (16 * (t / 16) + s) (i 1).val (i 2).val := by
  have hb : 16 * (t / 16) + t % 16 < cfg0.N := by rw [Nat.div_add_mod]; exact ht
  have e := Pipeline.eq_accAt_of_mod (N := cfg0.N) (fun n h => (outsAt0 V c n h).1) 16 (sumsReset V c) (sumsStep V c)
    (fun n h h0 => reset_sums V c n h h0) (fun n h h0 => next_sums V c n h h0) (Nat.succ_pos 15) t ht hb
  have key := Pipeline.accAt_add_apply (N := cfg0.N) (sumsReset V c) (sumsStep V c) (fun _ => (0 : EReal))
    (fun n (j : S1x1024x256.Idx) => tileSum V c n (j 1).val (j 2).val) (16 * (t / 16)) (t % 16)
    (fun h j => sumsReset_apply V c _ h j) (fun n h acc j _ _ => sumsStep_apply V c n h acc j) (t % 16) le_rfl hb i
  exact (congrFun e i).trans (key.trans (zero_add _))

/-- After tile t the counts buffer holds the class counts of the tiles of t's run up to t. -/
theorem counts_at (c : Dev nD) (t : ℕ) (ht : t < cfg0.N) (i : S1x1024x1.Idx) :
    (outsAt0 V c t ht).2 i = ∑ s ∈ Finset.range (t % 16 + 1), tileCount V c (16 * (t / 16) + s) (i 1).val := by
  have hb : 16 * (t / 16) + t % 16 < cfg0.N := by rw [Nat.div_add_mod]; exact ht
  have e := Pipeline.eq_accAt_of_mod (N := cfg0.N) (fun n h => (outsAt0 V c n h).2) 16 (countsReset V c) (countsStep V c)
    (fun n h h0 => reset_counts V c n h h0) (fun n h h0 => next_counts V c n h h0) (Nat.succ_pos 15) t ht hb
  have key := Pipeline.accAt_add_apply (N := cfg0.N) (countsReset V c) (countsStep V c) (fun _ => (0 : EReal))
    (fun n (j : S1x1024x1.Idx) => tileCount V c n (j 1).val) (16 * (t / 16)) (t % 16)
    (fun h j => countsReset_apply V c _ h j) (fun n h acc j _ _ => countsStep_apply V c n h acc j) (t % 16) le_rfl hb i
  exact (congrFun e i).trans (key.trans (zero_add _))

end Cert.KernelIdeal.Sums
end
-- ==== Proof.SumsFinal.lean ====
/-
  Pass 1's two output arrays. Core c's block of each is written back once, after the last tile of c's run, and the two
  blocks tile the array: so entry (c, k, d) of the sums array is the sum over the sixteen tiles of c's run of the
  tile's rows of class k at feature d, and entry (c, k, 0) of the counts array their number.
-/
import proofs.«421600_j48103633715690_3_alg».proof.Proof.SumsFold

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Sums
open Cert.KernelIdeal Cert.KernelIdeal.Gen Cert.CenterLoss

variable (V : (c : Dev nD) → (b : Ref sig .tc) → Buf (Elt Ideal) ((c : Thread nD τ).loc b))

theorem index_partialSums : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem xsize_partialSums : ∀ t : Fin cfg0.N, win0_2.xsize (grid0.coords t) 0 = 1 ∧ win0_2.xsize (grid0.coords t) 1 = 1024 ∧ win0_2.xsize (grid0.coords t) 2 = 256 :=
  (by decide +kernel : ∀ t : Fin grid0.N, win0_2.xsize (grid0.coords t) 0 = 1 ∧ win0_2.xsize (grid0.coords t) 1 = 1024 ∧ win0_2.xsize (grid0.coords t) 2 = 256)

/-- Core `i 0`'s partial class sums: over its sixteen tiles. -/
def partialSumsFn (c : Dev nD) : S2x1024x256.Idx → EReal :=
  fun i => ∑ s ∈ Finset.range 16, tileSum V c (16 * (i 0).val + s) (i 1).val (i 2).val
abbrev partialSums (c : Dev nD) : Buf (Elt Ideal) ((c : Thread nD τ).loc main_v1_0) := partialSumsFn V c

/-- What the last tile of a run writes back is its block of that array. -/
theorem flushed_partialSums (c : Dev nD) (t : Fin cfg0.N) (hf : (cfg0.win 2).flush t = true) :
    (dat0 V c).flushed 2 t = ((cfg0.win 2).blk t).view.read (Elt Ideal) (partialSums V c) := by
  have h15 : t.val % 16 = 15 := (flush0_2 t).mp hf
  obtain ⟨i0, i1, i2⟩ := index_partialSums t
  obtain ⟨s0, s1, s2⟩ := xsize_partialSums t
  funext y
  rw [View.read_apply]
  show (dat0 V c).after 2 t ((cfg0.win 2).xinj (grid0.coords t) y) = partialSumsFn V c (((cfg0.win 2).blk t).view.emb y)
  rw [after0_2, sums_at V c t.val t.isLt, h15]
  unfold partialSumsFn
  have hy0 : (y 0).val < 1 := s0 ▸ (y 0).isLt
  have e0 : (((cfg0.win 2).blk t).view.emb y 0).val = t.val / 16 := by
    show win0_2.index t 0 * 1 + 1 * (y 0).val = t.val / 16
    rw [i0]; omega
  have e1 : (((cfg0.win 2).blk t).view.emb y 1).val = (y 1).val := by
    show win0_2.index t 1 * 1024 + 1 * (y 1).val = (y 1).val
    rw [i1]; omega
  have e2 : (((cfg0.win 2).blk t).view.emb y 2).val = (y 2).val := by
    show win0_2.index t 2 * 256 + 1 * (y 2).val = (y 2).val
    rw [i2]; omega
  rw [e0, e1]
  try rw [e2]
  try rfl

/-- The two runs' last tiles cover the array, so it ends holding that function. -/
theorem final_partialSums (c : Dev nD) : (dat0 V c).arrAt 2 cfg0.N = partialSums V c :=
  (dat0 V c).arrAt_eq_of_cover 2 (partialSums V c) (flushed_partialSums V c) fun i => by
    have hN : cfg0.N = 32 := N_0
    have hi0 : (i 0).val < 2 := (i 0).isLt
    have hi1 : (i 1).val < 1024 := (i 1).isLt
    have hi2 : (i 2).val < 256 := (i 2).isLt
    have ht : 16 * (i 0).val + 15 < cfg0.N := by rw [hN]; omega
    obtain ⟨i0, i1, i2⟩ := index_partialSums ⟨16 * (i 0).val + 15, ht⟩
    obtain ⟨s0, s1, s2⟩ := xsize_partialSums ⟨16 * (i 0).val + 15, ht⟩
    refine ⟨⟨16 * (i 0).val + 15, ht⟩, (flush0_2 _).mpr (by show (16 * (i 0).val + 15) % 16 = 15; omega), ?_⟩
    show i ∈ ((View.whole main_v1_0).slice (win0_2.rect ⟨16 * (i 0).val + 15, ht⟩)).set
    rw [View.set_slice_whole, Rect.mem_set_unit]
    intro a
    match a with
    | ⟨0, _⟩ =>
      show win0_2.index ⟨16 * (i 0).val + 15, ht⟩ 0 * 1 ≤ (i 0 : Nat) ∧ (i 0 : Nat) < win0_2.index ⟨16 * (i 0).val + 15, ht⟩ 0 * 1 + win0_2.xsize (grid0.coords ⟨16 * (i 0).val + 15, ht⟩) 0
      rw [i0, s0]; show (16 * (i 0).val + 15) / 16 * 1 ≤ _ ∧ _ < (16 * (i 0).val + 15) / 16 * 1 + 1; omega
    | ⟨1, _⟩ =>
      show win0_2.index ⟨16 * (i 0).val + 15, ht⟩ 1 * 1024 ≤ (i 1 : Nat) ∧ (i 1 : Nat) < win0_2.index ⟨16 * (i 0).val + 15, ht⟩ 1 * 1024 + win0_2.xsize (grid0.coords ⟨16 * (i 0).val + 15, ht⟩) 1
      rw [i1, s1]; omega
    | ⟨2, _⟩ =>
      show win0_2.index ⟨16 * (i 0).val + 15, ht⟩ 2 * 256 ≤ (i 2 : Nat) ∧ (i 2 : Nat) < win0_2.index ⟨16 * (i 0).val + 15, ht⟩ 2 * 256 + win0_2.xsize (grid0.coords ⟨16 * (i 0).val + 15, ht⟩) 2
      rw [i2, s2]; omega

theorem index_partialCounts : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem xsize_partialCounts : ∀ t : Fin cfg0.N, win0_3.xsize (grid0.coords t) 0 = 1 ∧ win0_3.xsize (grid0.coords t) 1 = 1024 ∧ win0_3.xsize (grid0.coords t) 2 = 1 :=
  (by decide +kernel : ∀ t : Fin grid0.N, win0_3.xsize (grid0.coords t) 0 = 1 ∧ win0_3.xsize (grid0.coords t) 1 = 1024 ∧ win0_3.xsize (grid0.coords t) 2 = 1)

/-- Core `i 0`'s partial class counts: over its sixteen tiles. -/
def partialCountsFn (c : Dev nD) : S2x1024x1.Idx → EReal :=
  fun i => ∑ s ∈ Finset.range 16, tileCount V c (16 * (i 0).val + s) (i 1).val
abbrev partialCounts (c : Dev nD) : Buf (Elt Ideal) ((c : Thread nD τ).loc main_v1_1) := partialCountsFn V c

/-- What the last tile of a run writes back is its block of that array. -/
theorem flushed_partialCounts (c : Dev nD) (t : Fin cfg0.N) (hf : (cfg0.win 3).flush t = true) :
    (dat0 V c).flushed 3 t = ((cfg0.win 3).blk t).view.read (Elt Ideal) (partialCounts V c) := by
  have h15 : t.val % 16 = 15 := (flush0_3 t).mp hf
  obtain ⟨i0, i1, i2⟩ := index_partialCounts t
  obtain ⟨s0, s1, s2⟩ := xsize_partialCounts t
  funext y
  rw [View.read_apply]
  show (dat0 V c).after 3 t ((cfg0.win 3).xinj (grid0.coords t) y) = partialCountsFn V c (((cfg0.win 3).blk t).view.emb y)
  rw [after0_3, counts_at V c t.val t.isLt, h15]
  unfold partialCountsFn
  have hy0 : (y 0).val < 1 := s0 ▸ (y 0).isLt
  have e0 : (((cfg0.win 3).blk t).view.emb y 0).val = t.val / 16 := by
    show win0_3.index t 0 * 1 + 1 * (y 0).val = t.val / 16
    rw [i0]; omega
  have e1 : (((cfg0.win 3).blk t).view.emb y 1).val = (y 1).val := by
    show win0_3.index t 1 * 1024 + 1 * (y 1).val = (y 1).val
    rw [i1]; omega
  have e2 : (((cfg0.win 3).blk t).view.emb y 2).val = (y 2).val := by
    show win0_3.index t 2 * 1 + 1 * (y 2).val = (y 2).val
    rw [i2]; omega
  rw [e0, e1]
  try rw [e2]
  try rfl

/-- The two runs' last tiles cover the array, so it ends holding that function. -/
theorem final_partialCounts (c : Dev nD) : (dat0 V c).arrAt 3 cfg0.N = partialCounts V c :=
  (dat0 V c).arrAt_eq_of_cover 3 (partialCounts V c) (flushed_partialCounts V c) fun i => by
    have hN : cfg0.N = 32 := N_0
    have hi0 : (i 0).val < 2 := (i 0).isLt
    have hi1 : (i 1).val < 1024 := (i 1).isLt
    have hi2 : (i 2).val < 1 := (i 2).isLt
    have ht : 16 * (i 0).val + 15 < cfg0.N := by rw [hN]; omega
    obtain ⟨i0, i1, i2⟩ := index_partialCounts ⟨16 * (i 0).val + 15, ht⟩
    obtain ⟨s0, s1, s2⟩ := xsize_partialCounts ⟨16 * (i 0).val + 15, ht⟩
    refine ⟨⟨16 * (i 0).val + 15, ht⟩, (flush0_3 _).mpr (by show (16 * (i 0).val + 15) % 16 = 15; omega), ?_⟩
    show i ∈ ((View.whole main_v1_1).slice (win0_3.rect ⟨16 * (i 0).val + 15, ht⟩)).set
    rw [View.set_slice_whole, Rect.mem_set_unit]
    intro a
    match a with
    | ⟨0, _⟩ =>
      show win0_3.index ⟨16 * (i 0).val + 15, ht⟩ 0 * 1 ≤ (i 0 : Nat) ∧ (i 0 : Nat) < win0_3.index ⟨16 * (i 0).val + 15, ht⟩ 0 * 1 + win0_3.xsize (grid0.coords ⟨16 * (i 0).val + 15, ht⟩) 0
      rw [i0, s0]; show (16 * (i 0).val + 15) / 16 * 1 ≤ _ ∧ _ < (16 * (i 0).val + 15) / 16 * 1 + 1; omega
    | ⟨1, _⟩ =>
      show win0_3.index ⟨16 * (i 0).val + 15, ht⟩ 1 * 1024 ≤ (i 1 : Nat) ∧ (i 1 : Nat) < win0_3.index ⟨16 * (i 0).val + 15, ht⟩ 1 * 1024 + win0_3.xsize (grid0.coords ⟨16 * (i 0).val + 15, ht⟩) 1
      rw [i1, s1]; omega
    | ⟨2, _⟩ =>
      show win0_3.index ⟨16 * (i 0).val + 15, ht⟩ 2 * 1 ≤ (i 2 : Nat) ∧ (i 2 : Nat) < win0_3.index ⟨16 * (i 0).val + 15, ht⟩ 2 * 1 + win0_3.xsize (grid0.coords ⟨16 * (i 0).val + 15, ht⟩) 2
      rw [i2, s2]; omega

end Cert.KernelIdeal.Sums
end
-- ==== Proof.HostValues.lean ====
/-
  The host operations around the two passes, as functions of what the passes leave.

  Between the passes: the two cores' partial sums and counts are added, cut to the 1000 classes, the sums divided by
  the counts (at least 1), a class with rows taking that mean and a class without keeping its given center, and the
  table padded with 24 zero rows. After pass 2: the two cores' partial totals are added, divided by the batch size
  and halved. The labels reach both passes as 32 rows of 8192.
-/
import proofs.«421600_j48103633715690_3_alg».proof.Proof.Gen.KernelIdeal.Frame
import Idealize.ShloMosaic.Lib.StableHlo.Run

set_option maxRecDepth 16384

noncomputable section
open Idealize.ShloMosaic Idealize.ShloMosaic.TcCoe Idealize.SL.Sem Idealize.ShloMosaic.StableHlo

namespace Cert.KernelIdeal.Host
open Cert.KernelIdeal Cert.KernelIdeal.Gen
variable {F : FTy → Type} [FloatOps F]

/-- The result from the two cores' partial totals. -/
def lossOf (tot : Vec F S2x1x1 .f32) : Vec F S_ .f32 :=
  mulf (constant S_ .f32 0x3F000000#32)
    (Host.divf (Host.reduceAdd tot (constant S_ .f32 0x00000000#32) reducesTo_S2x1x1_S_d0_1_2 h_S_)
      (constant S_ .f32 0x48800000#32))

/-- The class counts from the two cores' partial counts. -/
def countsOf (c2 : Vec F S2x1024x1 .f32) : Vec F S1000 .f32 :=
  shapeCast S1000 (extractStridedSlice S1000x1 ![0, 0]
    (Host.reduceAdd c2 (constant S_ .f32 0x00000000#32) reducesTo_S2x1024x1_S1024x1_d0 h_S_)
    slices_S1024x1_S1000x1_0_0) shapeCasts_S1000x1_S1000

/-- The class sums from the two cores' partial sums. -/
def sumsOf (s2 : Vec F S2x1024x256 .f32) : Vec F S1000x256 .f32 :=
  extractStridedSlice S1000x256 ![0, 0]
    (Host.reduceAdd s2 (constant S_ .f32 0x00000000#32) reducesTo_S2x1024x256_S1024x256_d0 h_S_)
    slices_S1024x256_S1000x256_0_0

/-- The new centers. -/
def newCentersOf (s2 : Vec F S2x1024x256 .f32) (c2 : Vec F S2x1024x1 .f32) (cen : Vec F S1000x256 .f32) : Vec F S1000x256 .f32 :=
  select
    (broadcastInDim S1000x256 ![0, 1] bcast_S1000x1_S1000x256_0_1 (broadcastInDim S1000x1 ![0] bcast_S1000_S1000x1_0
      (cmpf (F := F) .ogt (countsOf c2) (broadcastInDim S1000 ![] bcast_S_S1000 (constant S_ .f32 0x00000000#32)))))
    (Host.divf (sumsOf s2)
      (broadcastInDim S1000x256 ![0, 1] bcast_S1000x1_S1000x256_0_1 (broadcastInDim S1000x1 ![0] bcast_S1000_S1000x1_0
        (maximumf (countsOf c2) (broadcastInDim S1000 ![] bcast_S_S1000 (constant S_ .f32 0x3F800000#32))))))
    cen

/-- The padded table pass 2 reads. -/
def centersPadOf (s2 : Vec F S2x1024x256 .f32) (c2 : Vec F S2x1024x1 .f32) (cen : Vec F S1000x256 .f32) : Vec F S1024x256 .f32 :=
  pad S1024x256 ![0, 0] ![24, 0] ![0, 0] (newCentersOf s2 c2 cen) (sitofp (F := F) .f32 (constantI S_ 32 0#32))
    pads_S1000x256_S1024x256_0240_000 h_S_

variable (m : (ℓ : Loc nD τ sig) → Buf (Elt F) ℓ) (ρ : Dev nD → PrngReg)

/-- The result buffer at the last boundary. -/
theorem result_eq (c : Dev nD) : W8 m ρ c (Proc.devRef .tc main_v20) = lossOf (W7 m ρ c (Proc.devRef .tc main_v17)) := by
  show StableHlo.after hostOps2 (W7 m ρ c) (Proc.devRef .tc main_v20) = _
  after_results
  rfl

/-- The padded table at pass 2's entry. -/
theorem centers_eq (c : Dev nD) : W6 m ρ c (Proc.devRef .tc main_v16)
    = centersPadOf (W2 m ρ c (Proc.devRef .tc main_v1_0)) (W2 m ρ c (Proc.devRef .tc main_v1_1)) (W2 m ρ c (Proc.devRef .tc main_arg2)) := by
  show StableHlo.after hostOps1_3 (StableHlo.after hostOps1_2 (StableHlo.after hostOps1_1 (StableHlo.after hostOps1 (W2 m ρ c)))) (Proc.devRef .tc main_v16) = _
  after_results
  rfl

/-- The labels in rows at pass 1's entry. -/
theorem labels1_eq (c : Dev nD) : W1 m ρ c (Proc.devRef .tc main_v0)
    = shapeCast S32x1x8192 (m ((c : Thread nD τ).loc main_arg1)) shapeCasts_S262144_S32x1x8192 := by
  show StableHlo.after hostOps0 (W0 m ρ c) (Proc.devRef .tc main_v0) = _
  after_results
  rfl

/-- The batch at pass 1's entry. -/
theorem batch1_eq (c : Dev nD) : W1 m ρ c (Proc.devRef .tc main_arg0) = m ((c : Thread nD τ).loc main_arg0) := by
  show StableHlo.after hostOps0 (W0 m ρ c) (Proc.devRef .tc main_arg0) = _
  after_results

/-- The given centers at pass 1's entry. -/
theorem centers1_eq (c : Dev nD) : W1 m ρ c (Proc.devRef .tc main_arg2) = m ((c : Thread nD τ).loc main_arg2) := by
  show StableHlo.after hostOps0 (W0 m ρ c) (Proc.devRef .tc main_arg2) = _
  after_results

/-- Pass 1 leaves its inputs and the given centers as it found them. -/
theorem batch2_eq (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem labels2_eq (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
theorem centers2_eq (c : Dev nD) : W2 m ρ c (Proc.devRef .tc main_arg2) = W1 m ρ c (Proc.devRef .tc main_arg2) :=
  W2_of_ne m ρ c main_arg2 (by decide)

/-- The host operations between the passes write neither the batch nor the labels. -/
theorem batch6_eq (c : Dev nD) : W6 m ρ c (Proc.devRef .tc main_arg0) = W2 m ρ c (Proc.devRef .tc main_arg0) := by
  show StableHlo.after hostOps1_3 (StableHlo.after hostOps1_2 (StableHlo.after hostOps1_1 (StableHlo.after hostOps1 (W2 m ρ c)))) (Proc.devRef .tc main_arg0) = _
  after_results
theorem labels6_eq (c : Dev nD) : W6 m ρ c (Proc.devRef .tc main_v0) = W2 m ρ c (Proc.devRef .tc main_v0) := by
  show StableHlo.after hostOps1_3 (StableHlo.after hostOps1_2 (StableHlo.after hostOps1_1 (StableHlo.after hostOps1 (W2 m ρ c)))) (Proc.devRef .tc main_v0) = _
  after_results

end Cert.KernelIdeal.Host
end
-- ==== Proof.BlockReads.lean ====
/-
  What the two passes' input windows read: tile t's block of the batch is rows 8192·t … 8192·t + 8191, its block of the
  labels (laid out as 32 rows of 8192) is row t, and pass 2's table block is the whole table at every tile.
-/
import proofs.«421600_j48103633715690_3_alg».proof.Proof.Gen.KernelIdeal.Frame
import Idealize.ShloMosaic.Lib.ValueIdx
import Idealize.ShloMosaic.Lib.Pipeline.Value

set_option maxRecDepth 16384

noncomputable section
open Idealize.ShloMosaic Idealize.ShloMosaic.TcCoe Idealize.SL.Sem Idealize.ShloMosaic.ValueIdx

namespace Cert.KernelIdeal.Reads
open Cert.KernelIdeal Cert.KernelIdeal.Gen
variable {F : FTy → Type} [FloatOps F]
variable (V : (c : Dev nD) → (b : Ref sig .tc) → Buf (Elt F) ((c : Thread nD τ).loc b))

theorem row_lt (t : ℕ) (ht : t < 32) (r : Fin 8192) : 8192 * t + r.val < 262144 := by have := r.isLt; omega

/-- The block indices of the first pass's input windows at grid point t, the grid's 32 points taken in order: the batch
    window is at block (t, 0) and the labels window at block (t, 0, 0). Decided over the 32 points. -/
private theorem idx0 : ∀ t : Fin cfg0.N,
    (win0_0.index t 0 = t.val ∧ win0_0.index t 1 = 0)
      ∧ (win0_1.index t 0 = t.val ∧ win0_1.index t 1 = 0 ∧ win0_1.index t 2 = 0) :=
  (by decide +kernel : ∀ t : Fin grid0.N, _)

/-- The same for the second pass, whose table window is at block (0, 0) at every point. -/
private theorem idx1 : ∀ t : Fin cfg1.N,
    (win1_0.index t 0 = t.val ∧ win1_0.index t 1 = 0)
      ∧ (win1_1.index t 0 = t.val ∧ win1_1.index t 1 = 0 ∧ win1_1.index t 2 = 0)
      ∧ (win1_2.index t 0 = 0 ∧ win1_2.index t 1 = 0) :=
  (by decide +kernel : ∀ t : Fin grid1.N, _)

/-- Pass 1, the batch window. -/
theorem batch0 (c : Dev nD) (t : Fin cfg0.N) (r : Fin 8192) (d : Fin 256) :
    (iblk0 V c 0 t : Vec F S8192x256 .f32) (ix2 r d)
      = (V c main_arg0 : Vec F S262144x256 .f32) (ix2 ⟨8192 * t.val + r.val, row_lt t.val (N_0 ▸ t.isLt) r⟩ d) := by
  obtain ⟨⟨h0, h1⟩, _⟩ := idx0 t
  unfold iblk0
  rw [View.read_apply]
  -- the block's entry is the array's at the block's offset plus the entry's place in the block, axis by axis
  show V c main_arg0 _ = V c main_arg0 _
  congr 1
  funext a
  apply Fin.ext
  match a with
  | ⟨0, _⟩ => show win0_0.index t 0 * 8192 + 1 * r.val = 8192 * t.val + r.val; rw [h0]; omega
  | ⟨1, _⟩ => show win0_0.index t 1 * 256 + 1 * d.val = d.val; rw [h1]; omega

/-- Pass 1, the labels window. -/
theorem labels0 (c : Dev nD) (t : Fin cfg0.N) (r : Fin 8192) :
    (iblk0 V c 1 t : Vec F S1x1x8192 .i32) (ix3 (0 : Fin 1) (0 : Fin 1) r)
      = (V c main_v0 : Vec F S32x1x8192 .i32) (ix3 (⟨t.val, N_0 ▸ t.isLt⟩ : Fin 32) (0 : Fin 1) r) := by
  obtain ⟨_, h0, h1, h2⟩ := idx0 t
  unfold iblk0
  rw [View.read_apply]
  show V c main_v0 _ = V c main_v0 _
  congr 1
  funext a
  apply Fin.ext
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 8192 + 1 * r.val = r.val; rw [h2]; omega

/-- Pass 2, the batch window. -/
theorem batch1 (c : Dev nD) (t : Fin cfg1.N) (r : Fin 8192) (d : Fin 256) :
    (iblk1 V c 0 t : Vec F S8192x256 .f32) (ix2 r d)
      = (V c main_arg0 : Vec F S262144x256 .f32) (ix2 ⟨8192 * t.val + r.val, row_lt t.val (N_1 ▸ t.isLt) r⟩ d) := by
  obtain ⟨⟨h0, h1⟩, _, _⟩ := idx1 t
  unfold iblk1
  rw [View.read_apply]
  show V c main_arg0 _ = V c main_arg0 _
  congr 1
  funext a
  apply Fin.ext
  match a with
  | ⟨0, _⟩ => show win1_0.index t 0 * 8192 + 1 * r.val = 8192 * t.val + r.val; rw [h0]; omega
  | ⟨1, _⟩ => show win1_0.index t 1 * 256 + 1 * d.val = d.val; rw [h1]; omega

/-- Pass 2, the labels window. -/
theorem labels1 (c : Dev nD) (t : Fin cfg1.N) (r : Fin 8192) :
    (iblk1 V c 1 t : Vec F S1x1x8192 .i32) (ix3 (0 : Fin 1) (0 : Fin 1) r)
      = (V c main_v0 : Vec F S32x1x8192 .i32) (ix3 (⟨t.val, N_1 ▸ t.isLt⟩ : Fin 32) (0 : Fin 1) r) := by
  obtain ⟨_, ⟨h0, h1, h2⟩, _⟩ := idx1 t
  unfold iblk1
  rw [View.read_apply]
  show V c main_v0 _ = V c main_v0 _
  congr 1
  funext a
  apply Fin.ext
  match a with
  | ⟨0, _⟩ => show win1_1.index t 0 * 1 + 1 * 0 = t.val; rw [h0]; omega
  | ⟨1, _⟩ => show win1_1.index t 1 * 1 + 1 * 0 = 0; rw [h1]
  | ⟨2, _⟩ => show win1_1.index t 2 * 8192 + 1 * r.val = r.val; rw [h2]; omega

/-- Pass 2, the table window: the whole table. -/
theorem table1 (c : Dev nD) (t : Fin cfg1.N) (k : Fin 1024) (d : Fin 256) :
    (iblk1 V c 2 t : Vec F S1024x256 .f32) (ix2 k d) = (V c main_v16 : Vec F S1024x256 .f32) (ix2 k d) := by
  obtain ⟨_, _, h0, h1⟩ := idx1 t
  unfold iblk1
  rw [View.read_apply]
  show V c main_v16 _ = V c main_v16 _
  congr 1
  funext a
  apply Fin.ext
  match a with
  | ⟨0, _⟩ => show win1_2.index t 0 * 1024 + 1 * k.val = k.val; rw [h0]; omega
  | ⟨1, _⟩ => show win1_2.index t 1 * 256 + 1 * d.val = d.val; rw [h1]; omega

end Cert.KernelIdeal.Reads
end
-- ==== Proof.LabelsRows.lean ====
/-
  The labels laid out as 32 rows of 8192 (a reshape keeps the row-major order): row t, lane r is label 8192·t + r.
-/
import proofs.«421600_j48103633715690_3_alg».proof.Proof.Gen.KernelIdeal
import Idealize.ShloMosaic.Lib.ValueIdx
import Idealize.ShloMosaic.Lib.Pipeline.Value

noncomputable section
open Idealize.ShloMosaic Idealize.ShloMosaic.ValueIdx

namespace Cert.KernelIdeal.Reads
open Cert.KernelIdeal Cert.KernelIdeal.Gen

theorem label_lt (t : Fin 32) (r : Fin 8192) : 8192 * t.val + r.val < 262144 := by have := r.isLt; have := t.isLt; omega

theorem labels_rows {α : Type} (l : S262144.Idx → α) (t : Fin 32) (r : Fin 8192) :
    shapeCast S32x1x8192 l shapeCasts_S262144_S32x1x8192 (ix3 t (0 : Fin 1) r)
      = l (ix1 ⟨8192 * t.val + r.val, label_lt t r⟩) := by
  -- a reshape reads the operand at the index of the same row-major position
  refine shapeCast_apply l _ _ _ ?_
  rw [Shape.rowMajor_val_one, Shape.rowMajor_val_three]
  -- position 8192·t + r of the vector; position ((t·1 + 0)·8192 + r) of the [32, 1, 8192] array
  show 8192 * t.val + r.val = (t.val * 1 + 0) * 8192 + r.val
  omega

end Cert.KernelIdeal.Reads
end
-- ==== Proof.TileMath.lean ====
/-
  Sums over tiles and runs, and the one-hot weight as a selector: a sum over 32 tiles of 8192 rows is the sum over all
  262144 rows, a sum over 2 runs of 16 tiles the sum over all 32 tiles, a sum over the two cores' entries of a
  [2, 1, 1] array its total, and a one-hot-weighted sum over the padded class axis picks the label's own class.
-/
import proofs.«421600_j48103633715690_3_alg».proof.Proof.Spec

noncomputable section

namespace Cert.CenterLoss

open Idealize.ShloMosaic Idealize.ShloMosaic.ValueIdx

/-- `n` blocks of `m` consecutive numbers are the first `m * n` numbers: peel off the last block. -/
private theorem sum_blocks {M : Type*} [AddCommMonoid M] (m : ℕ) (f : ℕ → M) (n : ℕ) :
    ∑ t ∈ Finset.range n, ∑ r ∈ Finset.range m, f (m * t + r) = ∑ r ∈ Finset.range (m * n), f r := by
  induction n with
  | zero => simp
  | succ n ih => rw [Finset.sum_range_succ, ih, Nat.mul_succ, Finset.sum_range_add]

/-- 32 tiles of 8192 rows are the 262144 rows. -/
theorem sum_tiles {M : Type*} [AddCommMonoid M] (f : ℕ → M) :
    ∑ t ∈ Finset.range 32, ∑ r ∈ Finset.range 8192, f (8192 * t + r) = ∑ r ∈ Finset.range 262144, f r :=
  sum_blocks 8192 f 32

/-- 2 runs of 16 tiles are the 32 tiles. -/
theorem sum_runs {M : Type*} [AddCommMonoid M] (f : ℕ → M) :
    ∑ c ∈ Finset.range 2, ∑ s ∈ Finset.range 16, f (16 * c + s) = ∑ t ∈ Finset.range 32, f t :=
  sum_blocks 16 f 2

/-- The total of a [2, 1, 1] array is the sum of its two cores' entries. -/
theorem sum_cores (f : (⟨3, ![2, 1, 1]⟩ : Shape).Idx → EReal) :
    ∑ i, f i = ∑ c : Fin 2, f (ix3 c (0 : Fin 1) (0 : Fin 1)) := by
  -- an index of a [2, 1, 1] array is its first coordinate: the other two live in `Fin 1`
  have key : ∀ i : (⟨3, ![2, 1, 1]⟩ : Shape).Idx, ix3 (i 0 : Fin 2) (0 : Fin 1) (0 : Fin 1) = i := by
    intro i
    have h1 : (i 1).val < 1 := (i 1).isLt
    have h2 : (i 2).val < 1 := (i 2).isLt
    funext a; refine Fin.ext ?_
    match a with
    | ⟨0, _⟩ => rfl
    | ⟨1, _⟩ => show (0 : ℕ) = (i 1).val; omega
    | ⟨2, _⟩ => show (0 : ℕ) = (i 2).val; omega
  exact Fintype.sum_equiv
    (⟨fun i => i 0, fun c => ix3 c (0 : Fin 1) (0 : Fin 1), key, fun _ => rfl⟩ : (⟨3, ![2, 1, 1]⟩ : Shape).Idx ≃ Fin 2)
    f (fun c => f (ix3 c (0 : Fin 1) (0 : Fin 1))) fun i => congrArg f (key i).symm

/-- A one-hot-weighted sum over the padded class axis picks the label's own class. -/
theorem hot_pick (w : BitVec 32) (g : ℕ → EReal) (hw : w.toNat < 1024) :
    ∑ k : Fin 1024, hot w k.val * g k.val = g w.toNat := by
  rw [Finset.sum_eq_single (⟨w.toNat, hw⟩ : Fin 1024)]
  · -- the label's own class weighs 1
    have h1 : hot w w.toNat = 1 := by
      unfold hot; rw [if_pos]; rw [BitVec.ofNat_toNat, BitVec.setWidth_eq]
    show hot w w.toNat * g w.toNat = g w.toNat
    rw [h1, one_mul]
  · -- every other class below 1024 weighs 0: a number below 2 ^ 32 is its own word's value
    intro k _ hk
    have h0 : hot w k.val = 0 := by
      unfold hot; rw [if_neg]
      intro h; apply hk; apply Fin.ext
      show k.val = w.toNat
      rw [h, BitVec.toNat_ofNat]
      have := k.isLt
      omega
    rw [h0, zero_mul]
  · intro h; exact absurd (Finset.mem_univ _) h

end Cert.CenterLoss

end
-- ==== Proof.KernelSums.lean ====
/-
  Pass 1 computes the class sums and counts. A tile's addends read the batch rows 8192·n … and their labels; a core's
  partial array sums its sixteen tiles; the two cores' partial arrays added are the sums over all 32 tiles, that is
  over all 262144 rows.
-/
import proofs.«421600_j48103633715690_3_alg».proof.Proof.SumsFinal
import proofs.«421600_j48103633715690_3_alg».proof.Proof.HostValues
import proofs.«421600_j48103633715690_3_alg».proof.Proof.BlockReads
import proofs.«421600_j48103633715690_3_alg».proof.Proof.LabelsRows
import proofs.«421600_j48103633715690_3_alg».proof.Proof.TileMath

set_option maxRecDepth 16384

noncomputable section
open Idealize.ShloMosaic Idealize.ShloMosaic.TcCoe Idealize.SL.Sem Idealize.ShloMosaic.ValueIdx

namespace Cert.KernelIdeal.Value
open Cert.KernelIdeal Cert.KernelIdeal.Gen Cert.CenterLoss

variable (m : (ℓ : Loc nD τ sig) → Buf (Elt Ideal) ℓ) (ρ : Dev nD → PrngReg)

/-- The three inputs as launched. -/
abbrev xs (c : Dev nD) : Cert.CenterLoss.Batch := m ((c : Thread nD τ).loc main_arg0)
abbrev ls (c : Dev nD) : Cert.CenterLoss.Labels := m ((c : Thread nD τ).loc main_arg1)
abbrev cs (c : Dev nD) : Cert.CenterLoss.Centers := m ((c : Thread nD τ).loc main_arg2)

/-- Row 8192·n + r of the batch, feature d, as pass 1's tile n reads it. -/
theorem batch_at0 (c : Dev nD) (n : ℕ) (h : n < cfg0.N) (r : Fin 8192) (d : Fin 256) :
    Sums.xblk (V1 m ρ) c ⟨n, h⟩ (ix2 r d) = feat (xs m c) (8192 * n + r.val) d.val := by
  have hn : n < 32 := lt_of_lt_of_eq h N_0
  have hr : 8192 * n + r.val < 262144 := by have := r.isLt; omega
  rw [feat, dif_pos ⟨hr, d.isLt⟩]
  refine (Reads.batch0 (V1 m ρ) c ⟨n, h⟩ r d).trans ?_
  exact congrFun (Host.batch1_eq m ρ c) _

/-- Label 8192·n + r, as pass 1's tile n reads it. -/
theorem label_at0 (c : Dev nD) (n : ℕ) (h : n < cfg0.N) (r : Fin 8192) :
    Sums.lblk (V1 m ρ) c ⟨n, h⟩ (ix3 (0 : Fin 1) (0 : Fin 1) r) = label (ls m c) (8192 * n + r.val) := by
  have hn : n < 32 := lt_of_lt_of_eq h N_0
  have hr : 8192 * n + r.val < 262144 := by have := r.isLt; omega
  rw [label, dif_pos hr]
  refine (Reads.labels0 (V1 m ρ) c ⟨n, h⟩ r).trans ?_
  refine (congrFun (Host.labels1_eq m ρ c) _).trans ?_
  exact Reads.labels_rows (ls m c) ⟨n, hn⟩ r

/-- Tile n's class sums over the batch rows. -/
theorem tileSum_eq (c : Dev nD) (n k d : ℕ) (hn : n < 32) (hd : d < 256) :
    Sums.tileSum (V1 m ρ) c n k d
      = ∑ r ∈ Finset.range 8192, hot (label (ls m c) (8192 * n + r)) k * feat (xs m c) (8192 * n + r) d := by
  have h : n < cfg0.N := lt_of_lt_of_eq hn N_0.symm
  rw [Sums.tileSum, dif_pos ⟨h, hd⟩, ← Fin.sum_univ_eq_sum_range (fun r => hot (label (ls m c) (8192 * n + r)) k * feat (xs m c) (8192 * n + r) d) 8192]
  refine Finset.sum_congr rfl fun r _ => ?_
  rw [label_at0 m ρ c n h r, batch_at0 m ρ c n h r ⟨d, hd⟩]

/-- Tile n's class counts over the batch rows. -/
theorem tileCount_eq (c : Dev nD) (n k : ℕ) (hn : n < 32) :
    Sums.tileCount (V1 m ρ) c n k = ∑ r ∈ Finset.range 8192, hot (label (ls m c) (8192 * n + r)) k := by
  have h : n < cfg0.N := lt_of_lt_of_eq hn N_0.symm
  rw [Sums.tileCount, dif_pos h, ← Fin.sum_univ_eq_sum_range (fun r => hot (label (ls m c) (8192 * n + r)) k) 8192]
  refine Finset.sum_congr rfl fun r _ => ?_
  rw [label_at0 m ρ c n h r]

/-- The two cores' partial sums added are the class sums. -/
theorem sums_total (c : Dev nD) (k : Fin 1024) (d : Fin 256) :
    ∑ c' : Fin 2, Sums.partialSumsFn (V1 m ρ) c (ix3 c' k d) = classSum (xs m c) (ls m c) k.val d.val := by
  show ∑ c' : Fin 2, ∑ s ∈ Finset.range 16, Sums.tileSum (V1 m ρ) c (16 * c'.val + s) k.val d.val = _
  rw [Fin.sum_univ_eq_sum_range (fun c' => ∑ s ∈ Finset.range 16, Sums.tileSum (V1 m ρ) c (16 * c' + s) k.val d.val) 2,
    sum_runs (fun t => Sums.tileSum (V1 m ρ) c t k.val d.val), classSum,
    ← sum_tiles (fun r => hot (label (ls m c) r) k.val * feat (xs m c) r d.val)]
  exact Finset.sum_congr rfl fun t ht => tileSum_eq m ρ c t k.val d.val (Finset.mem_range.mp ht) d.isLt

/-- The two cores' partial counts added are the class counts. -/
theorem counts_total (c : Dev nD) (k : Fin 1024) :
    ∑ c' : Fin 2, Sums.partialCountsFn (V1 m ρ) c (ix3 c' k (0 : Fin 1)) = classCount (ls m c) k.val := by
  show ∑ c' : Fin 2, ∑ s ∈ Finset.range 16, Sums.tileCount (V1 m ρ) c (16 * c'.val + s) k.val = _
  rw [Fin.sum_univ_eq_sum_range (fun c' => ∑ s ∈ Finset.range 16, Sums.tileCount (V1 m ρ) c (16 * c' + s) k.val) 2,
    sum_runs (fun t => Sums.tileCount (V1 m ρ) c t k.val), classCount,
    ← sum_tiles (fun r => hot (label (ls m c) r) k.val)]
  exact Finset.sum_congr rfl fun t ht => tileCount_eq m ρ c t k.val (Finset.mem_range.mp ht)

end Cert.KernelIdeal.Value
end
-- ==== Proof.LossFold.lean ====
/-
  Pass 2, point by point. A core's run is sixteen consecutive batch tiles; the first resets the scalar accumulator and
  every tile adds the distances of its rows to the centers their labels select. So after tile t the accumulator holds
  the summed row distances of the tiles of t's run up to t.
-/
import proofs.«421600_j48103633715690_3_alg».proof.Proof.Pieces
import proofs.«421600_j48103633715690_3_alg».proof.Proof.PayloadsAt
import Idealize.ShloMosaic.Lib.Pipeline.Value

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Loss
open Cert.KernelIdeal Cert.KernelIdeal.Gen Cert.CenterLoss

variable (V : (c : Dev nD) → (b : Ref sig .tc) → Buf (Elt Ideal) ((c : Thread nD τ).loc b))

/-- Tile t's rows and labels, and the (padded) table of centers, as the pipeline stages them. -/
abbrev xblk (c : Dev nD) (t : Fin cfg1.N) : Vec Ideal S8192x256 .f32 := iblk1 V c 0 t
abbrev lblk (c : Dev nD) (t : Fin cfg1.N) : Vec Ideal S1x1x8192 .i32 := iblk1 V c 1 t
abbrev cblk (c : Dev nD) (t : Fin cfg1.N) : Vec Ideal S1024x256 .f32 := iblk1 V c 2 t

/-- Tile n's summed row distances. -/
def tileLoss (c : Dev nD) (n : ℕ) : EReal :=
  if h : n < cfg1.N then
    ∑ r : Fin 8192, Ideal.sqrt (∑ d : Fin 256,
      (xblk V c ⟨n, h⟩ (ix2 r d) - ∑ k : Fin 1024, hot (lblk V c ⟨n, h⟩ (ix3 (0 : Fin 1) (0 : Fin 1) r)) k.val * cblk V c ⟨n, h⟩ (ix2 k d))
      * (xblk V c ⟨n, h⟩ (ix2 r d) - ∑ k : Fin 1024, hot (lblk V c ⟨n, h⟩ (ix3 (0 : Fin 1) (0 : Fin 1) r)) k.val * cblk V c ⟨n, h⟩ (ix2 k d)))
  else 0

theorem idx_unit (i : S1x1x1.Idx) : i = ix3 (0 : Fin 1) (0 : Fin 1) (0 : Fin 1) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- One tile's step of the accumulator. -/
theorem step_loss (c : Dev nD) (n : ℕ) (h : n < cfg1.N) (acc : Vec Ideal S1x1x1 .f32) (i : S1x1x1.Idx) :
    k1_pay2 (lblk V c ⟨n, h⟩) (cblk V c ⟨n, h⟩) (xblk V c ⟨n, h⟩) acc i = acc i + tileLoss V c n := by
  obtain rfl : i = ix3 (0 : Fin 1) (0 : Fin 1) (0 : Fin 1) := idx_unit i
  rw [tileLoss, dif_pos h]
  exact PayloadsAt.loss_apply (lblk V c ⟨n, h⟩) (cblk V c ⟨n, h⟩) (xblk V c ⟨n, h⟩) acc

/-- The fold's two functions: the reset value at a run's first tile, and a later tile's step. -/
def lossReset (c : Dev nD) (n : ℕ) (h : n < cfg1.N) : Vec Ideal S1x1x1 .f32 :=
  k1_pay2 (lblk V c ⟨n, h⟩) (cblk V c ⟨n, h⟩) (xblk V c ⟨n, h⟩) (k1_pay1 (F := Ideal))
def lossStep (c : Dev nD) (n : ℕ) (h : n < cfg1.N) (acc : Vec Ideal S1x1x1 .f32) : Vec Ideal S1x1x1 .f32 :=
  k1_pay2 (lblk V c ⟨n, h⟩) (cblk V c ⟨n, h⟩) (xblk V c ⟨n, h⟩) acc

theorem lossReset_apply (c : Dev nD) (n : ℕ) (h : n < cfg1.N) (i : S1x1x1.Idx) :
    lossReset V c n h i = 0 + tileLoss V c n := by
  unfold lossReset; rw [step_loss V c n h, PayloadsAt.zeroLoss_apply]
theorem lossStep_apply (c : Dev nD) (n : ℕ) (h : n < cfg1.N) (acc : Vec Ideal S1x1x1 .f32) (i : S1x1x1.Idx) :
    lossStep V c n h acc i = acc i + tileLoss V c n := by
  unfold lossStep; exact step_loss V c n h acc i

/-- The first tile of a run: the accumulator holds the tile's step over zero. -/
theorem reset_loss (c : Dev nD) (n : ℕ) (h : n < cfg1.N) (h0 : n % 16 = 0) :
    outsAt1 V c n h = lossReset V c n h := by
  show outsAt1 V c (⟨n, h⟩ : Fin cfg1.N).val (⟨n, h⟩ : Fin cfg1.N).isLt = _
  rw [outsAt1_A V c ⟨n, h⟩ h0]
  exact Pieces.loss_first (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) ((hcond1_0 ⟨n, h⟩).mpr h0)
    (xblk V c ⟨n, h⟩) (lblk V c ⟨n, h⟩) (cblk V c ⟨n, h⟩)

/-- Every other tile: the accumulator holds the tile's step over what the tile before left. -/
theorem next_loss (c : Dev nD) (n : ℕ) (h : n + 1 < cfg1.N) (h0 : ¬(n + 1) % 16 = 0) :
    outsAt1 V c (n + 1) h = lossStep V c (n + 1) h (outsAt1 V c n (Nat.lt_of_succ_lt h)) := by
  show outsAt1 V c (⟨n + 1, h⟩ : Fin cfg1.N).val (⟨n + 1, h⟩ : Fin cfg1.N).isLt = _
  rw [outsAt1_B V c ⟨n + 1, h⟩ h0]
  exact Pieces.loss_step (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => h0 ((hcond1_0 ⟨n + 1, h⟩).mp hh))
    (xblk V c ⟨n + 1, h⟩) (lblk V c ⟨n + 1, h⟩) (cblk V c ⟨n + 1, h⟩) (outsAt1 V c n (Nat.lt_of_succ_lt h))

/-- After tile t the accumulator holds the summed row distances of the tiles of t's run up to t. -/
theorem loss_at (c : Dev nD) (t : ℕ) (ht : t < cfg1.N) (i : S1x1x1.Idx) :
    outsAt1 V c t ht i = ∑ s ∈ Finset.range (t % 16 + 1), tileLoss V c (16 * (t / 16) + s) := by
  have hb : 16 * (t / 16) + t % 16 < cfg1.N := by rw [Nat.div_add_mod]; exact ht
  have e := Pipeline.eq_accAt_of_mod (N := cfg1.N) (fun n h => outsAt1 V c n h) 16 (lossReset V c) (lossStep V c)
    (fun n h h0 => reset_loss V c n h h0) (fun n h h0 => next_loss V c n h h0) (Nat.succ_pos 15) t ht hb
  have key := Pipeline.accAt_add_apply (N := cfg1.N) (lossReset V c) (lossStep V c) (fun _ => (0 : EReal))
    (fun n (_ : S1x1x1.Idx) => tileLoss V c n) (16 * (t / 16)) (t % 16)
    (fun h j => lossReset_apply V c _ h j) (fun n h acc j _ _ => lossStep_apply V c n h acc j) (t % 16) le_rfl hb i
  exact (congrFun e i).trans (key.trans (zero_add _))

end Cert.KernelIdeal.Loss
end
-- ==== Proof.LossFinal.lean ====
/-
  Pass 2's output array. Core c's one-entry block is written back once, after the last tile of c's run, and the two
  blocks tile the array: so entry (c, 0, 0) is the sum over the sixteen tiles of c's run of the tile's summed row
  distances.
-/
import proofs.«421600_j48103633715690_3_alg».proof.Proof.LossFold

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Loss
open Cert.KernelIdeal Cert.KernelIdeal.Gen Cert.CenterLoss

variable (V : (c : Dev nD) → (b : Ref sig .tc) → Buf (Elt Ideal) ((c : Thread nD τ).loc b))

theorem index_partialTotals : ∀ t : Fin cfg1.N, win1_3.index t 0 = t.val / 16 ∧ win1_3.index t 1 = 0 ∧ win1_3.index t 2 = 0 :=
  (by decide +kernel : ∀ t : Fin grid1.N, win1_3.index t 0 = t.val / 16 ∧ win1_3.index t 1 = 0 ∧ win1_3.index t 2 = 0)
theorem xsize_partialTotals : ∀ t : Fin cfg1.N, win1_3.xsize (grid1.coords t) 0 = 1 ∧ win1_3.xsize (grid1.coords t) 1 = 1 ∧ win1_3.xsize (grid1.coords t) 2 = 1 :=
  (by decide +kernel : ∀ t : Fin grid1.N, win1_3.xsize (grid1.coords t) 0 = 1 ∧ win1_3.xsize (grid1.coords t) 1 = 1 ∧ win1_3.xsize (grid1.coords t) 2 = 1)

/-- Core `i 0`'s partial total of row distances: over its sixteen tiles. -/
def partialTotalsFn (c : Dev nD) : S2x1x1.Idx → EReal :=
  fun i => ∑ s ∈ Finset.range 16, tileLoss V c (16 * (i 0).val + s)
abbrev partialTotals (c : Dev nD) : Buf (Elt Ideal) ((c : Thread nD τ).loc main_v17) := partialTotalsFn V c

/-- What the last tile of a run writes back is its block of that array. -/
theorem flushed_partialTotals (c : Dev nD) (t : Fin cfg1.N) (hf : (cfg1.win 3).flush t = true) :
    (dat1 V c).flushed 3 t = ((cfg1.win 3).blk t).view.read (Elt Ideal) (partialTotals V c) := by
  have h15 : t.val % 16 = 15 := (flush1_3 t).mp hf
  obtain ⟨i0, i1, i2⟩ := index_partialTotals t
  obtain ⟨s0, s1, s2⟩ := xsize_partialTotals t
  funext y
  rw [View.read_apply]
  show (dat1 V c).after 3 t ((cfg1.win 3).xinj (grid1.coords t) y) = partialTotalsFn V c (((cfg1.win 3).blk t).view.emb y)
  rw [after1_3, loss_at V c t.val t.isLt, h15]
  unfold partialTotalsFn
  have hy0 : (y 0).val < 1 := s0 ▸ (y 0).isLt
  have e0 : (((cfg1.win 3).blk t).view.emb y 0).val = t.val / 16 := by
    show win1_3.index t 0 * 1 + 1 * (y 0).val = t.val / 16
    rw [i0]; omega
  have e1 : (((cfg1.win 3).blk t).view.emb y 1).val = (y 1).val := by
    show win1_3.index t 1 * 1 + 1 * (y 1).val = (y 1).val
    rw [i1]; omega
  have e2 : (((cfg1.win 3).blk t).view.emb y 2).val = (y 2).val := by
    show win1_3.index t 2 * 1 + 1 * (y 2).val = (y 2).val
    rw [i2]; omega
  rw [e0]
  try rw [e1]
  try rw [e2]
  try rfl

/-- The two runs' last tiles cover the array, so it ends holding that function. -/
theorem final_partialTotals (c : Dev nD) : (dat1 V c).arrAt 3 cfg1.N = partialTotals V c :=
  (dat1 V c).arrAt_eq_of_cover 3 (partialTotals V c) (flushed_partialTotals V c) fun i => by
    have hN : cfg1.N = 32 := N_1
    have hi0 : (i 0).val < 2 := (i 0).isLt
    have hi1 : (i 1).val < 1 := (i 1).isLt
    have hi2 : (i 2).val < 1 := (i 2).isLt
    have ht : 16 * (i 0).val + 15 < cfg1.N := by rw [hN]; omega
    obtain ⟨i0, i1, i2⟩ := index_partialTotals ⟨16 * (i 0).val + 15, ht⟩
    obtain ⟨s0, s1, s2⟩ := xsize_partialTotals ⟨16 * (i 0).val + 15, ht⟩
    refine ⟨⟨16 * (i 0).val + 15, ht⟩, (flush1_3 _).mpr (by show (16 * (i 0).val + 15) % 16 = 15; omega), ?_⟩
    show i ∈ ((View.whole main_v17).slice (win1_3.rect ⟨16 * (i 0).val + 15, ht⟩)).set
    rw [View.set_slice_whole, Rect.mem_set_unit]
    intro a
    match a with
    | ⟨0, _⟩ =>
      show win1_3.index ⟨16 * (i 0).val + 15, ht⟩ 0 * 1 ≤ (i 0 : Nat) ∧ (i 0 : Nat) < win1_3.index ⟨16 * (i 0).val + 15, ht⟩ 0 * 1 + win1_3.xsize (grid1.coords ⟨16 * (i 0).val + 15, ht⟩) 0
      rw [i0, s0]; show (16 * (i 0).val + 15) / 16 * 1 ≤ _ ∧ _ < (16 * (i 0).val + 15) / 16 * 1 + 1; omega
    | ⟨1, _⟩ =>
      show win1_3.index ⟨16 * (i 0).val + 15, ht⟩ 1 * 1 ≤ (i 1 : Nat) ∧ (i 1 : Nat) < win1_3.index ⟨16 * (i 0).val + 15, ht⟩ 1 * 1 + win1_3.xsize (grid1.coords ⟨16 * (i 0).val + 15, ht⟩) 1
      rw [i1, s1]; omega
    | ⟨2, _⟩ =>
      show win1_3.index ⟨16 * (i 0).val + 15, ht⟩ 2 * 1 ≤ (i 2 : Nat) ∧ (i 2 : Nat) < win1_3.index ⟨16 * (i 0).val + 15, ht⟩ 2 * 1 + win1_3.xsize (grid1.coords ⟨16 * (i 0).val + 15, ht⟩) 2
      rw [i2, s2]; omega

end Cert.KernelIdeal.Loss
end
-- ==== Proof.CentersAt.lean ====
/-
  The padded table of new centers read at an entry: below row 1000 the class's new center — the two cores' partial sums
  added and divided by the two cores' partial counts added (at least 1) when that count is positive, else the given
  center —, zero in the 24 pad rows.
-/
import proofs.«421600_j48103633715690_3_alg».proof.Proof.HostValues
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section
open Idealize.ShloMosaic Idealize.ShloMosaic.ValueIdx

namespace Cert.KernelIdeal.Host
open Cert.KernelIdeal Cert.KernelIdeal.Gen

/-- The two cores index the [2, 1, 1] array: the other two coordinates are 0. -/
private def coreEquiv : Fin 2 ≃ (⟨3, ![2, 1, 1]⟩ : Shape).Idx where
  toFun c := ix3 c (0 : Fin 1) (0 : Fin 1)
  invFun i := i 0
  left_inv c := rfl
  right_inv i := by
    funext a
    match a with
    | ⟨0, _⟩ => rfl
    | ⟨1, _⟩ => exact Fin.ext (Nat.lt_one_iff.mp (i 1).isLt).symm
    | ⟨2, _⟩ => exact Fin.ext (Nat.lt_one_iff.mp (i 2).isLt).symm

/-- The class counts read at class k: the two cores' partial counts of row k added. -/
private theorem counts_apply (c2 : Vec Ideal S2x1024x1 .f32) (k : Fin 1024) (h : k.val < 1000) :
    countsOf (F := Ideal) c2 (ix1 ⟨k.val, h⟩) = ∑ c : Fin 2, c2 (ix3 c k (0 : Fin 1)) := by
  unfold countsOf
  rw [shapeCast_apply _ shapeCasts_S1000x1_S1000 (ix1 ⟨k.val, h⟩) (ix2 ⟨k.val, h⟩ (0 : Fin 1))
    (by rw [Shape.rowMajor_val_two, Shape.rowMajor_val_one]; show k.val * 1 + 0 = k.val; omega)]
  rw [extractStridedSlice_apply _ _ slices_S1024x1_S1000x1_0_0 (ix2 ⟨k.val, h⟩ (0 : Fin 1)) (ix2 k (0 : Fin 1))
    (fun a => by match a with | ⟨0, _⟩ => exact (Nat.zero_add _).symm | ⟨1, _⟩ => rfl)]
  simp only [Host.reduceAdd, Ideal.hostReduceAdd_def]
  rw [Ideal.hostReduceAdd_single reducesTo_S2x1024x1_S1024x1_d0 (by decide), constant_apply, Ideal.ofBits_zero_f32, zero_add]
  exact Finset.sum_congr rfl fun c _ => congrArg c2 (funext fun a => Fin.ext (by
    match a with | ⟨0, _⟩ => rfl | ⟨1, _⟩ => rfl | ⟨2, _⟩ => rfl))

/-- The class sums read at (k, d): the two cores' partial sums there added. -/
private theorem sums_apply (s2 : Vec Ideal S2x1024x256 .f32) (k : Fin 1024) (h : k.val < 1000) (d : Fin 256) :
    sumsOf (F := Ideal) s2 (ix2 ⟨k.val, h⟩ d) = ∑ c : Fin 2, s2 (ix3 c k d) := by
  unfold sumsOf
  rw [extractStridedSlice_apply _ _ slices_S1024x256_S1000x256_0_0 (ix2 ⟨k.val, h⟩ d) (ix2 k d)
    (fun a => by match a with | ⟨0, _⟩ => exact (Nat.zero_add _).symm | ⟨1, _⟩ => exact (Nat.zero_add _).symm)]
  simp only [Host.reduceAdd, Ideal.hostReduceAdd_def]
  rw [Ideal.hostReduceAdd_single reducesTo_S2x1024x256_S1024x256_d0 (by decide), constant_apply, Ideal.ofBits_zero_f32, zero_add]
  exact Finset.sum_congr rfl fun c _ => congrArg s2 (funext fun a => Fin.ext (by
    match a with | ⟨0, _⟩ => rfl | ⟨1, _⟩ => rfl | ⟨2, _⟩ => rfl))

/-- A per-class vector spread along the features, read at (k, d), is the vector at k. -/
private theorem spread_apply {α : Type} (v : S1000.Idx → α) (k : Fin 1000) (d : Fin 256) :
    broadcastInDim S1000x256 ![0, 1] bcast_S1000x1_S1000x256_0_1 (broadcastInDim S1000x1 ![0] bcast_S1000_S1000x1_0 v) (ix2 k d)
      = v (ix1 k) := by
  rw [broadcastInDim_apply _ bcast_S1000x1_S1000x256_0_1 _ (ix2 k d) (ix2 k (0 : Fin 1)) (fun a => by
    match a with
    | ⟨0, _⟩ => show k.val = if (1000 : Nat) = 1 then 0 else k.val; rw [if_neg (by decide)]
    | ⟨1, _⟩ => show 0 = if (1 : Nat) = 1 then 0 else d.val; rw [if_pos rfl])]
  exact broadcastInDim_apply _ bcast_S1000_S1000x1_0 v (ix2 k (0 : Fin 1)) (ix1 k) (fun a => by
    match a with
    | ⟨0, _⟩ => show k.val = if (1000 : Nat) = 1 then 0 else k.val; rw [if_neg (by decide)])

/-- A literal spread over the classes is that literal at every class. -/
private theorem splat_apply (b : BitVec 32) (j : S1000.Idx) :
    broadcastInDim S1000 ![] bcast_S_S1000 (constant (F := Ideal) S_ .f32 b) j = Ideal.ofBits .f32 b :=
  broadcastInDim_apply _ bcast_S_S1000 _ j (fun a => a.elim0) (fun a => a.elim0)

/-- The new centers read at (k, d), k a class: the mean of the class's rows when it has any, else the given center. -/
private theorem newCenters_apply (s2 : Vec Ideal S2x1024x256 .f32) (c2 : Vec Ideal S2x1024x1 .f32) (cen : Vec Ideal S1000x256 .f32)
    (k : Fin 1024) (h : k.val < 1000) (d : Fin 256) :
    newCentersOf (F := Ideal) s2 c2 cen (ix2 ⟨k.val, h⟩ d)
      = Scalar.select (Ideal.cmp .ogt (∑ c : Fin 2, c2 (ix3 c k (0 : Fin 1))) (Ideal.ofBits .f32 0x00000000#32))
          (Ideal.div (∑ c : Fin 2, s2 (ix3 c k d))
            (max (∑ c : Fin 2, c2 (ix3 c k (0 : Fin 1))) (Ideal.ofBits .f32 0x3F800000#32)))
          (cen (ix2 ⟨k.val, h⟩ d)) := by
  have hdiv : ∀ (a b : FVec Ideal S1000x256 .f32) (i : S1000x256.Idx), Host.divf a b i = Ideal.div (a i) (b i) :=
    fun _ _ _ => rfl
  unfold newCentersOf
  rw [select_apply, spread_apply, cmpf_apply, splat_apply, hdiv, spread_apply, maximumf_apply, splat_apply,
    counts_apply, sums_apply]
  rfl

theorem centersPad_apply (s2 : Vec Ideal S2x1024x256 .f32) (c2 : Vec Ideal S2x1024x1 .f32) (cen : Vec Ideal S1000x256 .f32)
    (k : Fin 1024) (d : Fin 256) :
    centersPadOf (F := Ideal) s2 c2 cen (ix2 k d)
      = if h : k.val < 1000 then
          Scalar.select (Ideal.cmp .ogt (∑ c : Fin 2, c2 (ix3 c k (0 : Fin 1))) (Ideal.ofBits .f32 0x00000000#32))
            (Ideal.div (∑ c : Fin 2, s2 (ix3 c k d))
              (max (∑ c : Fin 2, c2 (ix3 c k (0 : Fin 1))) (Ideal.ofBits .f32 0x3F800000#32)))
            (cen (ix2 ⟨k.val, h⟩ d))
        else 0 := by
  unfold centersPadOf
  by_cases h : k.val < 1000
  · -- a row below 1000 lies inside the table: the pad reads the new centers there
    rw [dif_pos h, pad_apply_of_inside _ _ _ _ _ pads_S1000x256_S1024x256_0240_000 h_S_ (ix2 k d) (ix2 ⟨k.val, h⟩ d)
      (fun a => by
        match a with
        | ⟨0, _⟩ => show k.val = 0 + k.val * (0 + 1); omega
        | ⟨1, _⟩ => show d.val = 0 + d.val * (0 + 1); omega)]
    exact newCenters_apply s2 c2 cen k h d
  · -- a row from 1000 on is one of the 24 pad rows: the pad value, the integer 0 as a float
    rw [dif_neg h, pad_apply_of_not_inside _ _ _ _ _ pads_S1000x256_S1024x256_0240_000 h_S_ (ix2 k d) (0 : Fin 2)
      (fun hin => h (by have := hin.2.2; revert this; show (k.val - 0) / (0 + 1) < 1000 → _; intro this; omega))]
    show (((0#32 : BitVec 32).toInt : ℝ) : EReal) = 0
    simp

/-- The result from the two cores' partial totals, read. -/
theorem lossOf_apply (tot : Vec Ideal S2x1x1 .f32) (i : S_.Idx) :
    lossOf (F := Ideal) tot i
      = Ideal.ofBits .f32 0x3F000000#32 * Ideal.div (∑ c : Fin 2, tot (ix3 c (0 : Fin 1) (0 : Fin 1))) (Ideal.ofBits .f32 0x48800000#32) := by
  unfold lossOf
  rw [mulf_apply, constant_apply]
  simp only [Host.divf, Host.reduceAdd, Ideal.hostReduceAdd_def, Ideal.hostDivf_def]
  rw [Ideal.hostReduceAdd_total reducesTo_S2x1x1_S_d0_1_2 (fun b => b.elim0) tot _ i, constant_apply, constant_apply,
    Ideal.ofBits_zero_f32, zero_add, ← Equiv.sum_comp coreEquiv tot]
  rfl

end Cert.KernelIdeal.Host
end
-- ==== Proof.KernelLoss.lean ====
/-
  Pass 2 computes the summed row distances, and the program's result is the loss. The table pass 2 reads holds each
  class's new center in its first 1000 rows and zeros below; a row's one-hot product with it is its own class's new
  center when its label names a class; a core's partial total sums its sixteen tiles, the two cores' partial totals
  added are the sum over all 32 tiles, that is over all 262144 rows.
-/
import proofs.«421600_j48103633715690_3_alg».proof.Proof.KernelSums
import proofs.«421600_j48103633715690_3_alg».proof.Proof.LossFinal
import proofs.«421600_j48103633715690_3_alg».proof.Proof.CentersAt
import proofs.«421600_j48103633715690_3_alg».proof.Proof.KernelRun

set_option maxRecDepth 16384

noncomputable section
open Idealize.ShloMosaic Idealize.ShloMosaic.TcCoe Idealize.SL.Sem Idealize.ShloMosaic.ValueIdx

namespace Cert.KernelIdeal.Value
open Cert.KernelIdeal Cert.KernelIdeal.Gen Cert.CenterLoss

variable (m : (ℓ : Loc nD τ sig) → Buf (Elt Ideal) ℓ) (ρ : Dev nD → PrngReg)

/-- The table pass 2 reads: the new centers, then zero rows. -/
def paddedCenter (c : Dev nD) (k d : ℕ) : EReal :=
  if k < 1000 then newCenter (xs m c) (ls m c) (cs m c) k d else 0

theorem table_at (c : Dev nD) (k : Fin 1024) (d : Fin 256) :
    (W6 m ρ c (Proc.devRef .tc main_v16) : Vec Ideal S1024x256 .f32) (ix2 k d) = paddedCenter m c k.val d.val := by
  have h2 : W2 m ρ c (Proc.devRef .tc main_v1_0) = Sums.partialSumsFn (V1 m ρ) c :=
    (W2_arr m ρ c 2).trans (Sums.final_partialSums (V1 m ρ) c)
  have h3 : W2 m ρ c (Proc.devRef .tc main_v1_1) = Sums.partialCountsFn (V1 m ρ) c :=
    (W2_arr m ρ c 3).trans (Sums.final_partialCounts (V1 m ρ) c)
  have h4 : W2 m ρ c (Proc.devRef .tc main_arg2) = m ((c : Thread nD τ).loc main_arg2) :=
    (Host.centers2_eq m ρ c).trans (Host.centers1_eq m ρ c)
  refine (congrFun (Host.centers_eq m ρ c) (ix2 k d)).trans ?_
  rw [h2, h3, h4, Host.centersPad_apply, paddedCenter]
  by_cases hk : k.val < 1000
  · rw [dif_pos hk, if_pos hk, sums_total m ρ c k d, counts_total m ρ c k, newCenter, center, dif_pos ⟨hk, d.isLt⟩]
  · rw [dif_neg hk, if_neg hk]

/-- Row 8192·n + r of the batch, feature d, as pass 2's tile n reads it. -/
theorem batch_at1 (c : Dev nD) (n : ℕ) (h : n < cfg1.N) (r : Fin 8192) (d : Fin 256) :
    Loss.xblk (V6 m ρ) c ⟨n, h⟩ (ix2 r d) = feat (xs m c) (8192 * n + r.val) d.val := by
  have hn : n < 32 := lt_of_lt_of_eq h N_1
  have hr : 8192 * n + r.val < 262144 := by have := r.isLt; omega
  rw [feat, dif_pos ⟨hr, d.isLt⟩]
  refine (Reads.batch1 (V6 m ρ) c ⟨n, h⟩ r d).trans ?_
  exact congrFun ((Host.batch6_eq m ρ c).trans ((Host.batch2_eq m ρ c).trans (Host.batch1_eq m ρ c))) _

/-- Label 8192·n + r, as pass 2's tile n reads it. -/
theorem label_at1 (c : Dev nD) (n : ℕ) (h : n < cfg1.N) (r : Fin 8192) :
    Loss.lblk (V6 m ρ) c ⟨n, h⟩ (ix3 (0 : Fin 1) (0 : Fin 1) r) = label (ls m c) (8192 * n + r.val) := by
  have hn : n < 32 := lt_of_lt_of_eq h N_1
  have hr : 8192 * n + r.val < 262144 := by have := r.isLt; omega
  rw [label, dif_pos hr]
  refine (Reads.labels1 (V6 m ρ) c ⟨n, h⟩ r).trans ?_
  refine (congrFun ((Host.labels6_eq m ρ c).trans ((Host.labels2_eq m ρ c).trans (Host.labels1_eq m ρ c))) _).trans ?_
  exact Reads.labels_rows (ls m c) ⟨n, hn⟩ r

/-- The table, as pass 2's tile n reads it. -/
theorem table_at1 (c : Dev nD) (n : ℕ) (h : n < cfg1.N) (k : Fin 1024) (d : Fin 256) :
    Loss.cblk (V6 m ρ) c ⟨n, h⟩ (ix2 k d) = paddedCenter m c k.val d.val :=
  (Reads.table1 (V6 m ρ) c ⟨n, h⟩ k d).trans (table_at m ρ c k d)

/-- Tile n's summed row distances over the batch rows. -/
theorem tileLoss_eq (c : Dev nD) (hl : InRange (ls m c)) (n : ℕ) (hn : n < 32) :
    Loss.tileLoss (V6 m ρ) c n = ∑ r ∈ Finset.range 8192, rowDist (xs m c) (ls m c) (cs m c) (8192 * n + r) := by
  have h : n < cfg1.N := lt_of_lt_of_eq hn N_1.symm
  rw [Loss.tileLoss, dif_pos h, ← Fin.sum_univ_eq_sum_range (fun r => rowDist (xs m c) (ls m c) (cs m c) (8192 * n + r)) 8192]
  refine Finset.sum_congr rfl fun r _ => ?_
  have hr : 8192 * n + r.val < 262144 := by have := r.isLt; omega
  have hw : (label (ls m c) (8192 * n + r.val)).toNat < 1000 := hl _ hr
  have hsel : ∀ d : Fin 256, ∑ k : Fin 1024, hot (Loss.lblk (V6 m ρ) c ⟨n, h⟩ (ix3 (0 : Fin 1) (0 : Fin 1) r)) k.val
        * Loss.cblk (V6 m ρ) c ⟨n, h⟩ (ix2 k d)
      = newCenter (xs m c) (ls m c) (cs m c) (label (ls m c) (8192 * n + r.val)).toNat d.val := fun d => by
    rw [label_at1 m ρ c n h r]
    rw [Finset.sum_congr rfl fun k _ => by rw [table_at1 m ρ c n h k d]]
    rw [hot_pick (label (ls m c) (8192 * n + r.val)) (fun k => paddedCenter m c k d.val) (by omega), paddedCenter, if_pos hw]
  rw [rowDist, ← Fin.sum_univ_eq_sum_range (fun d => (feat (xs m c) (8192 * n + r.val) d
        - newCenter (xs m c) (ls m c) (cs m c) (label (ls m c) (8192 * n + r.val)).toNat d)
      * (feat (xs m c) (8192 * n + r.val) d - newCenter (xs m c) (ls m c) (cs m c) (label (ls m c) (8192 * n + r.val)).toNat d)) 256]
  refine congrArg Ideal.sqrt (Finset.sum_congr rfl fun d _ => ?_)
  rw [hsel d, batch_at1 m ρ c n h r d]

/-- The two cores' partial totals added are the sum of all rows' distances. -/
theorem totals_total (c : Dev nD) (hl : InRange (ls m c)) :
    ∑ c' : Fin 2, Loss.partialTotalsFn (V6 m ρ) c (ix3 c' (0 : Fin 1) (0 : Fin 1))
      = ∑ r ∈ Finset.range 262144, rowDist (xs m c) (ls m c) (cs m c) r := by
  show ∑ c' : Fin 2, ∑ s ∈ Finset.range 16, Loss.tileLoss (V6 m ρ) c (16 * c'.val + s) = _
  rw [Fin.sum_univ_eq_sum_range (fun c' => ∑ s ∈ Finset.range 16, Loss.tileLoss (V6 m ρ) c (16 * c' + s)) 2,
    sum_runs (fun t => Loss.tileLoss (V6 m ρ) c t), ← sum_tiles (fun r => rowDist (xs m c) (ls m c) (cs m c) r)]
  exact Finset.sum_congr rfl fun t ht => tileLoss_eq m ρ c hl t (Finset.mem_range.mp ht)

/-- The result buffer holds the loss. -/
theorem result_is_loss (c : Dev nD) (hl : InRange (ls m c)) :
    W8 m ρ c (Proc.devRef .tc main_v20) = fun _ => loss (xs m c) (ls m c) (cs m c) := by
  have h7 : W7 m ρ c (Proc.devRef .tc main_v17) = Loss.partialTotalsFn (V6 m ρ) c :=
    (W7_arr m ρ c 3).trans (Loss.final_partialTotals (V6 m ρ) c)
  rw [Host.result_eq m ρ c, h7]
  funext i
  rw [Host.lossOf_apply, totals_total m ρ c hl, loss]

/-- The run: every weakly fair execution terminates, nothing faulting, with the result at the loss of the launch
    arrays and those arrays unchanged, when every label names a class. -/
theorem run (hl : ∀ c : Dev nD, InRange (ls m c)) :
    θ_run defs (onTc (τ := τ) (main (F := Ideal))) ⟨m, fun _ => 0, ρ⟩ (fun r => ∀ c : Dev nD,
      r.2.mem ((c.tc : Thread nD τ).loc main_v20) = (fun _ => loss (xs m c) (ls m c) (cs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_is_loss m ρ c (hl c)), (h c).2⟩) (run_result m ρ)

end Cert.KernelIdeal.Value
end
-- ==== Proof.lean ====
/-
  The center loss kernel against its reference, over the extended reals.

  Both programs compute, for 262144 rows of 256 features with a class label each and a table of 1000 centers, half the
  mean distance of a row to its class's NEW center (the mean of the class's rows, or the given center for a class with
  no row). The reference does it with two segment sums, a gather and a norm. The kernel does it in two passes over the
  batch in 32 tiles of 8192 rows, sixteen tiles to each of two cores: pass 1 multiplies the one-hot matrix of a tile's
  labels (over a class axis padded to 1024) with the tile's rows, and with a column of ones, and accumulates the products
  into per-core class sums and counts; the host adds the two cores' arrays, divides, selects and pads with zero rows;
  pass 2 multiplies the one-hot matrix with that table, which picks each row's class center, and accumulates the rows'
  distances into a per-core scalar; the host adds the two scalars, divides by the batch size and halves.

  Over the extended reals a product with a one-hot row is a selection (0 · x = 0 and 1 · x = x for every x, the
  infinities included) and sums may be regrouped freely, so neither side needs the inputs finite. What the two sides do
  need is that every label names a class, 0 ≤ label < 1000: outside that range the reference's segment sum drops the row
  and its gather wraps or clamps the label, while the kernel's one-hot row is empty or picks a zero pad row. The
  precondition says so, and the proof uses exactly that conjunct of it.

  The specification both sides meet is `Cert.CenterLoss.loss`. The kernel's run with its result named is the launch
  theorem called once more with the generated frame's text; its value is read through the two passes' accumulations,
  the window reads and the host operations in between; the reference's run is read one operation at a time.
-/
import proofs.«421600_j48103633715690_3_alg».proof.Defs
import proofs.«421600_j48103633715690_3_alg».proof.Proof.Gen.Kernel
import proofs.«421600_j48103633715690_3_alg».proof.Proof.Gen.Kernel.Skeleton
import proofs.«421600_j48103633715690_3_alg».proof.Proof.Gen.Kernel.Launch
import proofs.«421600_j48103633715690_3_alg».proof.Proof.Gen.Kernel.Points
import proofs.«421600_j48103633715690_3_alg».proof.Proof.Gen.Kernel.Frame
import proofs.«421600_j48103633715690_3_alg».proof.Proof.Gen.KernelIdeal
import proofs.«421600_j48103633715690_3_alg».proof.Proof.Gen.KernelIdeal.Skeleton
import proofs.«421600_j48103633715690_3_alg».proof.Proof.Gen.KernelIdeal.Launch
import proofs.«421600_j48103633715690_3_alg».proof.Proof.Gen.KernelIdeal.Points
import proofs.«421600_j48103633715690_3_alg».proof.Proof.Gen.KernelIdeal.Frame
import proofs.«421600_j48103633715690_3_alg».proof.Proof.Gen.ReferenceIdeal
import proofs.«421600_j48103633715690_3_alg».proof.Proof.Gen.Pre_finite_inputs
import proofs.«421600_j48103633715690_3_alg».proof.Proof.RefRun
import proofs.«421600_j48103633715690_3_alg».proof.Proof.RefRead
import proofs.«421600_j48103633715690_3_alg».proof.Proof.RefValue
import proofs.«421600_j48103633715690_3_alg».proof.Proof.PreDecode
import proofs.«421600_j48103633715690_3_alg».proof.Proof.KernelLoss
import Idealize.ShloMosaic.Adequacy
import Idealize.ShloMosaic.Init

noncomputable section

namespace Cert.Proof

open Idealize.ShloMosaic Idealize.SL.Sem

/-- The three programs run and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end at the loss of the (agreeing) launch arrays: the kernel by its two passes, the
    reference by its segment sums and gather, every label naming a class by the precondition. -/
theorem algebraic : Cert.algebraic_KernelIdeal_ReferenceIdeal := by
  intro m ρ m' ρ' hpre hagree
  have hl : ∀ c : Dev Cert.KernelIdeal.nD, Cert.CenterLoss.InRange (Cert.KernelIdeal.Value.ls m c) :=
    fun c => Cert.KernelIdeal.PreDecode.inRange_of_pre m hpre c
  refine ⟨fun c _ => Cert.CenterLoss.loss (Cert.KernelIdeal.Value.xs m c) (Cert.KernelIdeal.Value.ls m c) (Cert.KernelIdeal.Value.cs m c),
    Cert.KernelIdeal.Value.run m ρ hl, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.ReadP.val_main_v27_eq _ _ _).trans
    (Cert.ReferenceIdeal.RefValue.result_eq _ _ _ (hl c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
